-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x16 : Shape := ⟨2, ![4000000, 16]⟩
abbrev S1024 : Shape := ⟨1, ![1024]⟩
abbrev S16x16 : Shape := ⟨2, ![16, 16]⟩
abbrev S16 : Shape := ⟨1, ![16]⟩
abbrev S4000000 : Shape := ⟨1, ![4000000]⟩
abbrev S_ : Shape := ⟨0, ![]⟩

class Facts : Prop where
  bcast_S_S4000000x16 : S_.BroadcastsInDim S4000000x16 (![] : Fin 0 → Fin S4000000x16.rank)
  reducesTo_S4000000x16_S_d0_1 : S4000000x16.ReducesTo [0, 1] S_
  h_S_ : 0 < S_.numel
  bcast_S_S1024 : S_.BroadcastsInDim S1024 (![] : Fin 0 → Fin S1024.rank)
  reducesTo_S1024_S_d0 : S1024.ReducesTo [0] S_
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S16 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg4 : FVec F S16x16 .f32) (main_arg5 : FVec F S16 .f32) (main_arg6 : FVec F S16x16 .f32) (main_arg7 : FVec F S16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg4
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x16 .f32 := Host.absf main_arg6
  let main_cst_10 : FVec F S_ .f32 := constant S_ .f32 0x7F800000#32
  let main_v30 : FVec F S16x16 .f32 := broadcastInDim S16x16 ![] bcast_S_S16x16 main_cst_10
  let main_v31 : IVec S16x16 1 := cmpf .olt main_v29 main_v30
  let main_c_11 : IVec S_ 1 := constantI S_ 1 1#1
  let main_v32 : IVec S_ 1 := (fun x v => Host.reduce IntOp.andi x v reducesTo_S16x16_S_d0_1 h_S_) main_v31 main_c_11
  let main_v33 : IVec S_ 1 := andi main_v28 main_v32
  fn_part2 (F := F) main_arg7 main_v33

def fn {F : FTy → Type} [FloatOps F] (main_arg0 : FVec F S4000000x16 .f32) (main_arg1 : FVec F S1024 .f32) (main_arg2 : FVec F S16x16 .f32) (main_arg3 : FVec F S16 .f32) (main_arg4 : FVec F S16x16 .f32) (main_arg5 : FVec F S16 .f32) (main_arg6 : FVec F S16x16 .f32) (main_arg7 : FVec F S16 .f32) (main_arg8 : IVec S4000000 32) : IVec S_ 1 :=
  let main_v0 : FVec F S4000000x16 .f32 := Host.absf main_arg0
  let main_cst : FVec F S_ .f32 := constant S_ .f32 0x7F800000#32
  let main_v1 : FVec F S4000000x16 .f32 := broadcastInDim S4000000x16 ![] bcast_S_S4000000x16 main_cst
  let main_v2 : IVec S4000000x16 1 := cmpf .olt main_v0 main_v1
  let main_c : IVec S_ 1 := constantI S_ 1 1#1
  let main_v3 : IVec S_ 1 := (fun x v => Host.reduce IntOp.andi x v reducesTo_S4000000x16_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S16x16 .f32 := Host.absf main_arg2
  let main_cst_2 : FVec F S_ .f32 := constant S_ .f32 0x7F800000#32
  let main_v10 : FVec F S16x16 .f32 := broadcastInDim S16x16 ![] bcast_S_S16x16 main_cst_2
  let main_v11 : IVec S16x16 1 := cmpf .olt main_v9 main_v10
  let main_c_3 : IVec S_ 1 := constantI S_ 1 1#1
  let main_v12 : IVec S_ 1 := (fun x v => Host.reduce IntOp.andi x v reducesTo_S16x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_arg7 main_v13 main_v16
-- ==== Kernel.lean ====
abbrev S4000000x16 : Shape := ⟨2, ![4000000, 16]⟩
abbrev S1024 : Shape := ⟨1, ![1024]⟩
abbrev S16x16 : Shape := ⟨2, ![16, 16]⟩
abbrev S16 : Shape := ⟨1, ![16]⟩
abbrev S4000000 : Shape := ⟨1, ![4000000]⟩
abbrev S_ : Shape := ⟨0, ![]⟩
abbrev S4000000x1 : Shape := ⟨2, ![4000000, 1]⟩
abbrev S500000x128 : Shape := ⟨2, ![500000, 128]⟩
abbrev S500000x8 : Shape := ⟨2, ![500000, 8]⟩
abbrev S8x8 : Shape := ⟨2, ![8, 8]⟩
abbrev S8x1x8x1 : Shape := ⟨4, ![8, 1, 8, 1]⟩
abbrev S1x16x1x16 : Shape := ⟨4, ![1, 16, 1, 16]⟩
abbrev S8x16x8x16 : Shape := ⟨4, ![8, 16, 8, 16]⟩
abbrev S128x128 : Shape := ⟨2, ![128, 128]⟩
abbrev S1x16 : Shape := ⟨2, ![1, 16]⟩
abbrev S8x16 : Shape := ⟨2, ![8, 16]⟩
abbrev S128 : Shape := ⟨1, ![128]⟩
abbrev S8 : Shape := ⟨1, ![8]⟩
abbrev S8x1 : Shape := ⟨2, ![8, 1]⟩
abbrev S1x128 : Shape := ⟨2, ![1, 128]⟩
abbrev S8x128 : Shape := ⟨2, ![8, 128]⟩
abbrev S4000x128 : Shape := ⟨2, ![4000, 128]⟩
abbrev S4000x8 : Shape := ⟨2, ![4000, 8]⟩

abbrev nBuf : Space → Nat
  | .hbm => 104
  | .vmem => 13
  | .smem => 0
  | _ => 0

abbrev bufTy : (tb : Table) → Fin (tcTables nBuf tb) → BufTy
  | .hbm, ⟨0, _⟩ => ⟨S4000000x16, .f32⟩
  | .hbm, ⟨1, _⟩ => ⟨S1024, .f32⟩
  | .hbm, ⟨2, _⟩ => ⟨S16x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S4000000, .i32⟩
  | .hbm, ⟨9, _⟩ => ⟨S4000000, .f32⟩
  | .hbm, ⟨10, _⟩ => ⟨S_, .i32⟩
  | .hbm, ⟨11, _⟩ => ⟨S4000000, .i32⟩
  | .hbm, ⟨12, _⟩ => ⟨S4000000, .i1⟩
  | .hbm, ⟨13, _⟩ => ⟨S_, .i32⟩
  | .hbm, ⟨14, _⟩ => ⟨S4000000, .i32⟩
  | .hbm, ⟨15, _⟩ => ⟨S4000000, .i32⟩
  | .hbm, ⟨16, _⟩ => ⟨S4000000, .i32⟩
  | .hbm, ⟨17, _⟩ => ⟨S4000000x1, .i32⟩
  | .hbm, ⟨18, _⟩ => ⟨S4000000, .f32⟩
  | .hbm, ⟨19, _⟩ => ⟨S4000000, .f32⟩
  | .hbm, ⟨20, _⟩ => ⟨S500000x128, .f32⟩
  | .hbm, ⟨21, _⟩ => ⟨S500000x8, .f32⟩
  | .hbm, ⟨22, _⟩ => ⟨S16x16, .f32⟩
  | .hbm, ⟨23, _⟩ => ⟨S8x8, .i32⟩
  | .hbm, ⟨24, _⟩ => ⟨S8x8, .i32⟩
  | .hbm, ⟨25, _⟩ => ⟨S_, .i32⟩
  | .hbm, ⟨26, _⟩ => ⟨S8x8, .i32⟩
  | .hbm, ⟨27, _⟩ => ⟨S8x8, .i32⟩
  | .hbm, ⟨28, _⟩ => ⟨S8x8, .i1⟩
  | .hbm, ⟨29, _⟩ => ⟨S8x8, .f32⟩
  | .hbm, ⟨30, _⟩ => ⟨S8x1x8x1, .f32⟩
  | .hbm, ⟨31, _⟩ => ⟨S1x16x1x16, .f32⟩
  | .hbm, ⟨32, _⟩ => ⟨S8x16x8x16, .f32⟩
  | .hbm, ⟨33, _⟩ => ⟨S8x16x8x16, .f32⟩
  | .hbm, ⟨34, _⟩ => ⟨S8x16x8x16, .f32⟩
  | .hbm, ⟨35, _⟩ => ⟨S128x128, .f32⟩
  | .hbm, ⟨36, _⟩ => ⟨S128x128, .bf16⟩
  | .hbm, ⟨37, _⟩ => ⟨S16x16, .f32⟩
  | .hbm, ⟨38, _⟩ => ⟨S8x8, .i32⟩
  | .hbm, ⟨39, _⟩ => ⟨S8x8, .i32⟩
  | .hbm, ⟨40, _⟩ => ⟨S_, .i32⟩
  | .hbm, ⟨41, _⟩ => ⟨S8x8, .i32⟩
  | .hbm, ⟨42, _⟩ => ⟨S8x8, .i32⟩
  | .hbm, ⟨43, _⟩ => ⟨S8x8, .i1⟩
  | .hbm, ⟨44, _⟩ => ⟨S8x8, .f32⟩
  | .hbm, ⟨45, _⟩ => ⟨S8x1x8x1, .f32⟩
  | .hbm, ⟨46, _⟩ => ⟨S1x16x1x16, .f32⟩
  | .hbm, ⟨47, _⟩ => ⟨S8x16x8x16, .f32⟩
  | .hbm, ⟨48, _⟩ => ⟨S8x16x8x16, .f32⟩
  | .hbm, ⟨49, _⟩ => ⟨S8x16x8x16, .f32⟩
  | .hbm, ⟨50, _⟩ => ⟨S128x128, .f32⟩
  | .hbm, ⟨51, _⟩ => ⟨S128x128, .bf16⟩
  | .hbm, ⟨52, _⟩ => ⟨S16x16, .f32⟩
  | .hbm, ⟨53, _⟩ => ⟨S8x8, .i32⟩
  | .hbm, ⟨54, _⟩ => ⟨S8x8, .i32⟩
  | .hbm, ⟨55, _⟩ => ⟨S_, .i32⟩
  | .hbm, ⟨56, _⟩ => ⟨S8x8, .i32⟩
  | .hbm, ⟨57, _⟩ => ⟨S8x8, .i32⟩
  | .hbm, ⟨58, _⟩ => ⟨S8x8, .i1⟩
  | .hbm, ⟨59, _⟩ => ⟨S8x8, .f32⟩
  | .hbm, ⟨60, _⟩ => ⟨S8x1x8x1, .f32⟩
  | .hbm, ⟨61, _⟩ => ⟨S1x16x1x16, .f32⟩
  | .hbm, ⟨62, _⟩ => ⟨S8x16x8x16, .f32⟩
  | .hbm, ⟨63, _⟩ => ⟨S8x16x8x16, .f32⟩
  | .hbm, ⟨64, _⟩ => ⟨S8x16x8x16, .f32⟩
  | .hbm, ⟨65, _⟩ => ⟨S128x128, .f32⟩
  | .hbm, ⟨66, _⟩ => ⟨S128x128, .bf16⟩
  | .hbm, ⟨67, _⟩ => ⟨S1x16, .f32⟩
  | .hbm, ⟨68, _⟩ => ⟨S8x16, .f32⟩
  | .hbm, ⟨69, _⟩ => ⟨S128, .f32⟩
  | .hbm, ⟨70, _⟩ => ⟨S1x16, .f32⟩
  | .hbm, ⟨71, _⟩ => ⟨S8x16, .f32⟩
  | .hbm, ⟨72, _⟩ => ⟨S128, .f32⟩
  | .hbm, ⟨73, _⟩ => ⟨S1x16, .f32⟩
  | .hbm, ⟨74, _⟩ => ⟨S8x16, .f32⟩
  | .hbm, ⟨75, _⟩ => ⟨S128, .f32⟩
  | .hbm, ⟨76, _⟩ => ⟨S8, .i32⟩
  | .hbm, ⟨77, _⟩ => ⟨S8x1, .i32⟩
  | .hbm, ⟨78, _⟩ => ⟨S128, .i32⟩
  | .hbm, ⟨79, _⟩ => ⟨S1x128, .i32⟩
  | .hbm, ⟨80, _⟩ => ⟨S_, .i32⟩
  | .hbm, ⟨81, _⟩ => ⟨S_, .i32⟩
  | .hbm, ⟨82, _⟩ => ⟨S1x128, .i32⟩
  | .hbm, ⟨83, _⟩ => ⟨S1x128, .i32⟩
  | .hbm, ⟨84, _⟩ => ⟨S1x128, .i32⟩
  | .hbm, ⟨85, _⟩ => ⟨S_, .i32⟩
  | .hbm, ⟨86, _⟩ => ⟨S1x128, .i32⟩
  | .hbm, ⟨87, _⟩ => ⟨S1x128, .i1⟩
  | .hbm, ⟨88, _⟩ => ⟨S1x128, .i32⟩
  | .hbm, ⟨89, _⟩ => ⟨S1x128, .i32⟩
  | .hbm, ⟨90, _⟩ => ⟨S_, .i32⟩
  | .hbm, ⟨91, _⟩ => ⟨S1x128, .i32⟩
  | .hbm, ⟨92, _⟩ => ⟨S1x128, .i1⟩
  | .hbm, ⟨93, _⟩ => ⟨S1x128, .i1⟩
  | .hbm, ⟨94, _⟩ => ⟨S_, .i32⟩
  | .hbm, ⟨95, _⟩ => ⟨S1x128, .i32⟩
  | .hbm, ⟨96, _⟩ => ⟨S1x128, .i32⟩
  | .hbm, ⟨97, _⟩ => ⟨S1x128, .i32⟩
  | .hbm, ⟨98, _⟩ => ⟨S8x128, .i32⟩
  | .hbm, ⟨99, _⟩ => ⟨S8x128, .i32⟩
  | .hbm, ⟨100, _⟩ => ⟨S8x128, .i1⟩
  | .hbm, ⟨101, _⟩ => ⟨S8x128, .f32⟩
  | .hbm, ⟨102, _⟩ => ⟨S500000x128, .f32⟩
  | .hbm, ⟨103, _⟩ => ⟨S4000000x16, .f32⟩
  | .local _ .vmem, ⟨0, _⟩ => ⟨S4000x128, .f32⟩
  | .local _ .vmem, ⟨1, _⟩ => ⟨S4000x128, .f32⟩
  | .local _ .vmem, ⟨2, _⟩ => ⟨S4000x8, .f32⟩
  | .local _ .vmem, ⟨3, _⟩ => ⟨S4000x8, .f32⟩
  | .local _ .vmem, ⟨4, _⟩ => ⟨S8x128, .f32⟩
  | .local _ .vmem, ⟨5, _⟩ => ⟨S128x128, .bf16⟩
  | .local _ .vmem, ⟨6, _⟩ => ⟨S128, .f32⟩
  | .local _ .vmem, ⟨7, _⟩ => ⟨S128x128, .bf16⟩
  | .local _ .vmem, ⟨8, _⟩ => ⟨S128, .f32⟩
  | .local _ .vmem, ⟨9, _⟩ => ⟨S128x128, .bf16⟩
  | .local _ .vmem, ⟨10, _⟩ => ⟨S128, .f32⟩
  | .local _ .vmem, ⟨11, _⟩ => ⟨S4000x128, .f32⟩
  | .local _ .vmem, ⟨12, _⟩ => ⟨S4000x128, .f32⟩
  | _, _ => ⟨S4000000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_3 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_4 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_v5 : Ref sig .tc := ⟨.hbm, 86, rfl⟩
abbrev main_call3_v6 : Ref sig .tc := ⟨.hbm, 87, rfl⟩
abbrev main_call3_v7 : Ref sig .tc := ⟨.hbm, 88, rfl⟩
abbrev main_call3_v8 : Ref sig .tc := ⟨.hbm, 89, rfl⟩
abbrev main_call3_c : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_c_0 : Ref sig .tc := ⟨.hbm, 94, rfl⟩
abbrev main_call3_v12 : Ref sig .tc := ⟨.hbm, 95, rfl⟩
abbrev main_call3_v13 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S4000000 : S_.BroadcastsInDim S4000000 (![] : Fin 0 → Fin S4000000.rank)
  bcast_S4000000_S4000000x1_0 : S4000000.BroadcastsInDim S4000000x1 (![0] : Fin 1 → Fin S4000000x1.rank)
  shapeCasts_S4000000x16_S500000x128 : S4000000x16.ShapeCasts S500000x128
  shapeCasts_S4000000_S500000x8 : S4000000.ShapeCasts S500000x8
  transposes_S16x16_S16x16_1_0 : S16x16.Transposes [1, 0] S16x16
  bcast_S_S8x8 : S_.BroadcastsInDim S8x8 (![] : Fin 0 → Fin S8x8.rank)
  bcast_S8x8_S8x1x8x1_0_2 : S8x8.BroadcastsInDim S8x1x8x1 (![0, 2] : Fin 2 → Fin S8x1x8x1.rank)
  bcast_S16x16_S1x16x1x16_1_3 : S16x16.BroadcastsInDim S1x16x1x16 (![1, 3] : Fin 2 → Fin S1x16x1x16.rank)
  bcast_S8x1x8x1_S8x16x8x16_0_1_2_3 : S8x1x8x1.BroadcastsInDim S8x16x8x16 (![0, 1, 2, 3] : Fin 4 → Fin S8x16x8x16.rank)
  bcast_S1x16x1x16_S8x16x8x16_0_1_2_3 : S1x16x1x16.BroadcastsInDim S8x16x8x16 (![0, 1, 2, 3] : Fin 4 → Fin S8x16x8x16.rank)
  shapeCasts_S8x16x8x16_S128x128 : S8x16x8x16.ShapeCasts S128x128
  bitsLt_bf16_f32 : FTy.bits .bf16 < FTy.bits .f32
  shapeCasts_S16_S1x16 : S16.ShapeCasts S1x16
  bcast_S1x16_S8x16_0_1 : S1x16.BroadcastsInDim S8x16 (![0, 1] : Fin 2 → Fin S8x16.rank)
  shapeCasts_S8x16_S128 : S8x16.ShapeCasts S128
  bcast_S8_S8x1_0 : S8.BroadcastsInDim S8x1 (![0] : Fin 1 → Fin S8x1.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S8x128_0_1 : S1x128.BroadcastsInDim S8x128 (![0, 1] : Fin 2 → Fin S8x128.rank)
  bcast_S8x1_S8x128_0_1 : S8x1.BroadcastsInDim S8x128 (![0, 1] : Fin 2 → Fin S8x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x8_S4000x8_0_0 : ∀ a, (![0, 0] : Fin 2 → Nat) a + S4000x8.size a ≤ S4000x8.size a
  h_S4000x8 : 0 < S4000x8.numel
  shapeCasts_S4000x8_S4000x8 : S4000x8.ShapeCasts S4000x8
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  shapeCasts_S500000x128_S4000000x16 : S500000x128.ShapeCasts S4000000x16
  gather_S1024_S4000000x1_S4000000_n_0_n_n_0_1_1_wf : GatherDims.WF S1024 S4000000x1 S4000000 [] [0] [] [0] [] 1 ![1]
  dot_S4000x128_S128x128_S4000x128_1_0_0_1_n_n_wf : DotDims.WF S4000x128 S128x128 S4000x128 [1] [0] [0] [1] [] []
  dot_S4000x8_S8x128_S4000x128_1_0_0_1_n_n_wf : DotDims.WF S4000x8 S8x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S500000x128.size a
  hwx0_0 : ∀ i : grid0.Coords, EltTy.bits .f32 = 32 ∨ (Rect.block (s := S500000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x8.size a ≤ S500000x8.size a
  hwx0_1 : ∀ i : grid0.Coords, EltTy.bits .f32 = 32 ∨ (Rect.block (s := S500000x8) S4000x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S500000x128.size a
  hwx0_9 : ∀ i : grid0.Coords, EltTy.bits .f32 = 32 ∨ (Rect.block (s := S500000x128) S4000x128.size (cc0_transform_9 i) (hinb0_9 i)).WholeWords (EltTy.packing .f32)

variable [Facts₀]

def gather_S1024_S4000000x1_S4000000_n_0_n_n_0_1_1 : GatherDims S1024 S4000000x1 S4000000 where
  offsetDims := []
  collapsedSliceDims := [0]
  operandBatchingDims := []
  startIndicesBatchingDims := []
  startIndexMap := [0]
  indexVectorDim := 1
  sliceSizes := ![1]
  wf := gather_S1024_S4000000x1_S4000000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x8_S8x128_S4000x128_1_0_0_1_n_n : DotDims S4000x8 S8x128 S4000x128 where
  lhsContracting := [1]
  rhsContracting := [0]
  lhsNonContracting := [0]
  rhsNonContracting := [1]
  lhsBatch := []
  rhsBatch := []
  wf := dot_S4000x8_S8x128_S4000x128_1_0_0_1_n_n_wf

abbrev win0_0 : Pipeline.Window sig grid0 :=
  Pipeline.Window.ofSpec (Memref.whole main_v9) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S4000x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v55) S8x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v40) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v43) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v37) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v46) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v56) S4000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4000000x16 : Shape := ⟨2, ![4000000, 16]⟩
abbrev S1024 : Shape := ⟨1, ![1024]⟩
abbrev S16x16 : Shape := ⟨2, ![16, 16]⟩
abbrev S16 : Shape := ⟨1, ![16]⟩
abbrev S4000000 : Shape := ⟨1, ![4000000]⟩
abbrev S1x16 : Shape := ⟨2, ![1, 16]⟩
abbrev S_ : Shape := ⟨0, ![]⟩
abbrev S4000000x1 : Shape := ⟨2, ![4000000, 1]⟩

abbrev nBuf : Space → Nat
  | .hbm => 83
  | .vmem => 0
  | .smem => 0
  | _ => 0

abbrev bufTy : (tb : Table) → Fin (tcTables nBuf tb) → BufTy
  | .hbm, ⟨0, _⟩ => ⟨S4000000x16, .f32⟩
  | .hbm, ⟨1, _⟩ => ⟨S1024, .f32⟩
  | .hbm, ⟨2, _⟩ => ⟨S16x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S4000000, .i32⟩
  | .hbm, ⟨9, _⟩ => ⟨S16x16, .f32⟩
  | .hbm, ⟨10, _⟩ => ⟨S4000000x16, .f32⟩
  | .hbm, ⟨11, _⟩ => ⟨S1x16, .f32⟩
  | .hbm, ⟨12, _⟩ => ⟨S4000000x16, .f32⟩
  | .hbm, ⟨13, _⟩ => ⟨S4000000x16, .f32⟩
  | .hbm, ⟨14, _⟩ => ⟨S_, .f32⟩
  | .hbm, ⟨15, _⟩ => ⟨S4000000x16, .f32⟩
  | .hbm, ⟨16, _⟩ => ⟨S4000000x16, .i1⟩
  | .hbm, ⟨17, _⟩ => ⟨S_, .f32⟩
  | .hbm, ⟨18, _⟩ => ⟨S4000000x16, .f32⟩
  | .hbm, ⟨19, _⟩ => ⟨S4000000x16, .i1⟩
  | .hbm, ⟨20, _⟩ => ⟨S_, .f32⟩
  | .hbm, ⟨21, _⟩ => ⟨S_, .f32⟩
  | .hbm, ⟨22, _⟩ => ⟨S4000000x16, .f32⟩
  | .hbm, ⟨23, _⟩ => ⟨S4000000x16, .f32⟩
  | .hbm, ⟨24, _⟩ => ⟨S4000000x16, .f32⟩
  | .hbm, ⟨25, _⟩ => ⟨S_, .f32⟩
  | .hbm, ⟨26, _⟩ => ⟨S4000000x16, .f32⟩
  | .hbm, ⟨27, _⟩ => ⟨S4000000x16, .f32⟩
  | .hbm, ⟨28, _⟩ => ⟨S4000000x16, .f32⟩
  | .hbm, ⟨29, _⟩ => ⟨S16x16, .f32⟩
  | .hbm, ⟨30, _⟩ => ⟨S4000000x16, .f32⟩
  | .hbm, ⟨31, _⟩ => ⟨S1x16, .f32⟩
  | .hbm, ⟨32, _⟩ => ⟨S4000000x16, .f32⟩
  | .hbm, ⟨33, _⟩ => ⟨S4000000x16, .f32⟩
  | .hbm, ⟨34, _⟩ => ⟨S_, .f32⟩
  | .hbm, ⟨35, _⟩ => ⟨S4000000x16, .f32⟩
  | .hbm, ⟨36, _⟩ => ⟨S4000000x16, .i1⟩
  | .hbm, ⟨37, _⟩ => ⟨S_, .f32⟩
  | .hbm, ⟨38, _⟩ => ⟨S4000000x16, .f32⟩
  | .hbm, ⟨39, _⟩ => ⟨S4000000x16, .i1⟩
  | .hbm, ⟨40, _⟩ => ⟨S_, .f32⟩
  | .hbm, ⟨41, _⟩ => ⟨S_, .f32⟩
  | .hbm, ⟨42, _⟩ => ⟨S4000000x16, .f32⟩
  | .hbm, ⟨43, _⟩ => ⟨S4000000x16, .f32⟩
  | .hbm, ⟨44, _⟩ => ⟨S4000000x16, .f32⟩
  | .hbm, ⟨45, _⟩ => ⟨S_, .f32⟩
  | .hbm, ⟨46, _⟩ => ⟨S4000000x16, .f32⟩
  | .hbm, ⟨47, _⟩ => ⟨S4000000x16, .f32⟩
  | .hbm, ⟨48, _⟩ => ⟨S4000000x16, .f32⟩
  | .hbm, ⟨49, _⟩ => ⟨S16x16, .f32⟩
  | .hbm, ⟨50, _⟩ => ⟨S4000000x16, .f32⟩
  | .hbm, ⟨51, _⟩ => ⟨S1x16, .f32⟩
  | .hbm, ⟨52, _⟩ => ⟨S4000000x16, .f32⟩
  | .hbm, ⟨53, _⟩ => ⟨S4000000x16, .f32⟩
  | .hbm, ⟨54, _⟩ => ⟨S_, .f32⟩
  | .hbm, ⟨55, _⟩ => ⟨S4000000x16, .f32⟩
  | .hbm, ⟨56, _⟩ => ⟨S4000000x16, .i1⟩
  | .hbm, ⟨57, _⟩ => ⟨S_, .f32⟩
  | .hbm, ⟨58, _⟩ => ⟨S4000000x16, .f32⟩
  | .hbm, ⟨59, _⟩ => ⟨S4000000x16, .i1⟩
  | .hbm, ⟨60, _⟩ => ⟨S_, .f32⟩
  | .hbm, ⟨61, _⟩ => ⟨S_, .f32⟩
  | .hbm, ⟨62, _⟩ => ⟨S4000000x16, .f32⟩
  | .hbm, ⟨63, _⟩ => ⟨S4000000x16, .f32⟩
  | .hbm, ⟨64, _⟩ => ⟨S4000000x16, .f32⟩
  | .hbm, ⟨65, _⟩ => ⟨S_, .f32⟩
  | .hbm, ⟨66, _⟩ => ⟨S4000000x16, .f32⟩
  | .hbm, ⟨67, _⟩ => ⟨S4000000x16, .f32⟩
  | .hbm, ⟨68, _⟩ => ⟨S4000000x16, .f32⟩
  | .hbm, ⟨69, _⟩ => ⟨S4000000, .f32⟩
  | .hbm, ⟨70, _⟩ => ⟨S_, .i32⟩
  | .hbm, ⟨71, _⟩ => ⟨S4000000, .i32⟩
  | .hbm, ⟨72, _⟩ => ⟨S4000000, .i1⟩
  | .hbm, ⟨73, _⟩ => ⟨S_, .i32⟩
  | .hbm, ⟨74, _⟩ => ⟨S4000000, .i32⟩
  | .hbm, ⟨75, _⟩ => ⟨S4000000, .i32⟩
  | .hbm, ⟨76, _⟩ => ⟨S4000000, .i32⟩
  | .hbm, ⟨77, _⟩ => ⟨S4000000x1, .i32⟩
  | .hbm, ⟨78, _⟩ => ⟨S4000000, .f32⟩
  | .hbm, ⟨79, _⟩ => ⟨S4000000, .f32⟩
  | .hbm, ⟨80, _⟩ => ⟨S4000000x1, .f32⟩
  | .hbm, ⟨81, _⟩ => ⟨S4000000x16, .f32⟩
  | .hbm, ⟨82, _⟩ => ⟨S4000000x16, .f32⟩
  | _, _ => ⟨S4000000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_cst_1 : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_v4 : Ref sig .tc := ⟨.hbm, 23, rfl⟩
abbrev main_call0_v5 : Ref sig .tc := ⟨.hbm, 24, rfl⟩
abbrev main_call0_cst_2 : Ref sig .tc := ⟨.hbm, 25, rfl⟩
abbrev main_call0_v6 : Ref sig .tc := ⟨.hbm, 26, rfl⟩
abbrev main_call0_v7 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_call1_cst : Ref sig .tc := ⟨.hbm, 34, rfl⟩
abbrev main_call1_v0 : Ref sig .tc := ⟨.hbm, 35, rfl⟩
abbrev main_call1_v1 : Ref sig .tc := ⟨.hbm, 36, rfl⟩
abbrev main_call1_cst_0 : Ref sig .tc := ⟨.hbm, 37, rfl⟩
abbrev main_call1_v2 : Ref sig .tc := ⟨.hbm, 38, rfl⟩
abbrev main_call1_v3 : Ref sig .tc := ⟨.hbm, 39, rfl⟩
abbrev main_call1_cst_1 : Ref sig .tc := ⟨.hbm, 40, rfl⟩
abbrev main_call1_call0_v0 : Ref sig .tc := ⟨.hbm, 41, rfl⟩
abbrev main_call1_call0_v1 : Ref sig .tc := ⟨.hbm, 42, rfl⟩
abbrev main_call1_v4 : Ref sig .tc := ⟨.hbm, 43, rfl⟩
abbrev main_call1_v5 : Ref sig .tc := ⟨.hbm, 44, rfl⟩
abbrev main_call1_cst_2 : Ref sig .tc := ⟨.hbm, 45, rfl⟩
abbrev main_call1_v6 : Ref sig .tc := ⟨.hbm, 46, rfl⟩
abbrev main_call1_v7 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_call2_cst : Ref sig .tc := ⟨.hbm, 54, rfl⟩
abbrev main_call2_v0 : Ref sig .tc := ⟨.hbm, 55, rfl⟩
abbrev main_call2_v1 : Ref sig .tc := ⟨.hbm, 56, rfl⟩
abbrev main_call2_cst_0 : Ref sig .tc := ⟨.hbm, 57, rfl⟩
abbrev main_call2_v2 : Ref sig .tc := ⟨.hbm, 58, rfl⟩
abbrev main_call2_v3 : Ref sig .tc := ⟨.hbm, 59, rfl⟩
abbrev main_call2_cst_1 : Ref sig .tc := ⟨.hbm, 60, rfl⟩
abbrev main_call2_call0_v0 : Ref sig .tc := ⟨.hbm, 61, rfl⟩
abbrev main_call2_call0_v1 : Ref sig .tc := ⟨.hbm, 62, rfl⟩
abbrev main_call2_v4 : Ref sig .tc := ⟨.hbm, 63, rfl⟩
abbrev main_call2_v5 : Ref sig .tc := ⟨.hbm, 64, rfl⟩
abbrev main_call2_cst_2 : Ref sig .tc := ⟨.hbm, 65, rfl⟩
abbrev main_call2_v6 : Ref sig .tc := ⟨.hbm, 66, rfl⟩
abbrev main_call2_v7 : Ref sig .tc := ⟨.hbm, 67, rfl⟩
abbrev main_v17 : Ref sig .tc := ⟨.hbm, 68, rfl⟩
abbrev main_v18 : Ref sig .tc := ⟨.hbm, 69, rfl⟩
abbrev main_c : Ref sig .tc := ⟨.hbm, 70, rfl⟩
abbrev main_v19 : Ref sig .tc := ⟨.hbm, 71, rfl⟩
abbrev main_v20 : Ref sig .tc := ⟨.hbm, 72, rfl⟩
abbrev main_c_0 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩

abbrev nD : Nat := 1
abbrev τ : Topo := Topo.v7x

variable {F : FTy → Type} [FloatOps F]

class Facts₀ : Prop where
  transposes_S16x16_S16x16_1_0 : S16x16.Transposes [1, 0] S16x16
  bcast_S16_S1x16_1 : S16.BroadcastsInDim S1x16 (![1] : Fin 1 → Fin S1x16.rank)
  bcast_S1x16_S4000000x16_0_1 : S1x16.BroadcastsInDim S4000000x16 (![0, 1] : Fin 2 → Fin S4000000x16.rank)
  bcast_S_S4000000x16 : S_.BroadcastsInDim S4000000x16 (![] : Fin 0 → Fin S4000000x16.rank)
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S4000000x1_S4000000x16_0_1 : S4000000x1.BroadcastsInDim S4000000x16 (![0, 1] : Fin 2 → Fin S4000000x16.rank)
  dot_S4000000x16_S16x16_S4000000x16_1_0_0_1_n_n_wf : DotDims.WF S4000000x16 S16x16 S4000000x16 [1] [0] [0] [1] [] []
  gather_S1024_S4000000x1_S4000000_n_0_n_n_0_1_1_wf : GatherDims.WF S1024 S4000000x1 S4000000 [] [0] [] [0] [] 1 ![1]

variable [Facts₀]

def dot_S4000000x16_S16x16_S4000000x16_1_0_0_1_n_n : DotDims S4000000x16 S16x16 S4000000x16 where
  lhsContracting := [1]
  rhsContracting := [0]
  lhsNonContracting := [0]
  rhsNonContracting := [1]
  lhsBatch := []
  rhsBatch := []
  wf := dot_S4000000x16_S16x16_S4000000x16_1_0_0_1_n_n_wf
def gather_S1024_S4000000x1_S4000000_n_0_n_n_0_1_1 : GatherDims S1024 S4000000x1 S4000000 where
  offsetDims := []
  collapsedSliceDims := [0]
  operandBatchingDims := []
  startIndicesBatchingDims := []
  startIndexMap := [0]
  indexVectorDim := 1
  sliceSizes := ![1]
  wf := gather_S1024_S4000000x1_S4000000_n_0_n_n_0_1_1_wf

class Facts : Prop extends Facts₀ where

variable [Facts]
-- ==== Proof.HostOperands.lean ====
/-
  What the region finds in the arrays it stages.

  Before the region the program packs its operands: the N × 16 rows are viewed as N/8 × 128 (eight atoms per row);
  the per-atom scalar  s[n] = float (part[n]) + charge[part[n]]  is computed once and viewed as N/8 × 8; each
  16 × 16 weight W becomes the 128 × 128 matrix  I₈ ⊗ Wᵀ  (the product of the 8 × 8 identity, spread over axes
  0 and 2, with Wᵀ spread over axes 1 and 3, re-laid as 128 × 128); each bias is repeated eight times; and the
  8 × 128 selector has a one where lane ÷ 16 is the row number.  Each is stated here as one term of the argument
  arrays, for any reading of the floats.
-/
import proofs.«414204_j87325275062873_3_alg».proof.Proof.Gen.KernelIdeal.Frame
import Idealize.ShloMosaic.Lib.StableHlo.Run

noncomputable section

namespace Cert.KernelIdeal.Packed

open Cert.KernelIdeal Cert.KernelIdeal.Gen Idealize.ShloMosaic Idealize.ShloMosaic.TcCoe Idealize.SL.Sem Idealize.ShloMosaic.StableHlo

variable {F : FTy → Type} [FloatOps F]

/-! ## The terms -/

/-- The per-atom scalar: the part number as a float plus the charge table read at it (a negative index moved up by
    the table's length first). -/
def rowScalar (charge : FVec F S1024 .f32) (part : IVec S4000000 32) : FVec F S4000000 .f32 :=
  addf (sitofp .f32 part)
    (Host.gather gather_S1024_S4000000x1_S4000000_n_0_n_n_0_1_1 charge
      (broadcastInDim S4000000x1 ![0] bcast_S4000000_S4000000x1_0
        (select (cmpi .slt part (broadcastInDim S4000000 ![] bcast_S_S4000000 (constantI S_ 32 0#32)))
          (addi part (broadcastInDim S4000000 ![] bcast_S_S4000000 (constantI S_ 32 1024#32))) part)))

/-- The rows, eight to a packed row. -/
def packedRows (x : FVec F S4000000x16 .f32) : FVec F S500000x128 .f32 :=
  shapeCast S500000x128 x shapeCasts_S4000000x16_S500000x128

/-- The per-atom scalars, eight to a packed row. -/
def packedScalars (charge : FVec F S1024 .f32) (part : IVec S4000000 32) : FVec F S500000x8 .f32 :=
  shapeCast S500000x8 (rowScalar charge part) shapeCasts_S4000000_S500000x8

/-- The 8 × 8 identity, from two iotas compared. -/
def eye8 : FVec F S8x8 .f32 :=
  uitofp .f32 (cmpi .eq (addi (iotaInDim S8x8 32 0) (broadcastInDim S8x8 ![] bcast_S_S8x8 (constantI S_ 32 0#32))) (iotaInDim S8x8 32 1))

/-- I₈ ⊗ Wᵀ as a 128 × 128 matrix. -/
def blockDiag (w : FVec F S16x16 .f32) : FVec F S128x128 .bf16 :=
  truncf .bf16
    (shapeCast S128x128
      (mulf
        (broadcastInDim S8x16x8x16 ![0, 1, 2, 3] bcast_S8x1x8x1_S8x16x8x16_0_1_2_3 (broadcastInDim S8x1x8x1 ![0, 2] bcast_S8x8_S8x1x8x1_0_2 eye8))
        (broadcastInDim S8x16x8x16 ![0, 1, 2, 3] bcast_S1x16x1x16_S8x16x8x16_0_1_2_3
          (broadcastInDim S1x16x1x16 ![1, 3] bcast_S16x16_S1x16x1x16_1_3 (transpose S16x16 [1, 0] w transposes_S16x16_S16x16_1_0))))
      shapeCasts_S8x16x8x16_S128x128)
    bitsLt_bf16_f32

/-- A bias repeated for each of the eight atoms of a packed row. -/
def tiledBias (b : FVec F S16 .f32) : FVec F S128 .f32 :=
  shapeCast S128 (broadcastInDim S8x16 ![0, 1] bcast_S1x16_S8x16_0_1 (shapeCast S1x16 b shapeCasts_S16_S1x16)) shapeCasts_S8x16_S128

/-- Lane numbers 0 … 127 as a row. -/
def laneRow : IVec S1x128 32 := broadcastInDim S1x128 ![1] bcast_S128_S1x128_1 (iotaInDim S128 32 0)

/-- The divisor 16 on every lane. -/
def sixteen : IVec S1x128 32 := broadcastInDim S1x128 ![] bcast_S_S1x128 (id (constantI S_ 32 16#32))

/-- Lane ÷ 16 rounded toward minus infinity: the truncated quotient, less one where the signs differ and the
    remainder is not zero. -/
def laneAtom : IVec S1x128 32 :=
  select
    (andi (cmpi .ne (signi laneRow) (broadcastInDim S1x128 ![] bcast_S_S1x128 (signi (id (constantI S_ 32 16#32)))))
      (cmpi .ne (Host.remsi laneRow sixteen) (broadcastInDim S1x128 ![] bcast_S_S1x128 (constantI S_ 32 0#32))))
    (subi (Host.divsi laneRow sixteen) (broadcastInDim S1x128 ![] bcast_S_S1x128 (constantI S_ 32 1#32)))
    (Host.divsi laneRow sixteen)

/-- The selector: one where the lane's atom is the row number. -/
def selector : FVec F S8x128 .f32 :=
  uitofp .f32 (cmpi .eq (broadcastInDim S8x128 ![0, 1] bcast_S1x128_S8x128_0_1 laneAtom)
    (broadcastInDim S8x128 ![0, 1] bcast_S8x1_S8x128_0_1 (broadcastInDim S8x1 ![0] bcast_S8_S8x1_0 (iotaInDim S8 32 0))))

/-! ## The arrays at the region's entry -/

variable (m : (ℓ : Loc nD τ sig) → Buf (Elt F) ℓ)

section Entry
set_option maxRecDepth 16384
set_option maxHeartbeats 4000000

macro "entry_contents" : tactic =>
  `(tactic| (dsimp only [V, V0]
             simp only [hostOps0, hostOps0_1, hostOps0_2, hostOps0_3, hostOps0_4, hostOps0_5, hostOps0_6, hostOps0_7, hostOps0_8,
               List.flatten_cons, List.flatten_nil, List.append_nil, List.cons_append, List.nil_append]
             after_results_simp))

theorem entry_rows (c : Dev nD) :
    (V m c main_v9 : FVec F S500000x128 .f32) = packedRows (m ((c : Thread nD τ).loc main_arg0)) := by
  unfold packedRows
  entry_contents
  rfl

theorem entry_scalars (c : Dev nD) :
    (V m c main_v10 : FVec F S500000x8 .f32) = packedScalars (m ((c : Thread nD τ).loc main_arg1)) (m ((c : Thread nD τ).loc main_arg8)) := by
  unfold packedScalars rowScalar
  entry_contents
  rfl

theorem entry_selector (c : Dev nD) : (V m c main_v55 : FVec F S8x128 .f32) = selector := by
  unfold selector laneAtom sixteen laneRow
  entry_contents
  rfl

theorem entry_weight1 (c : Dev nD) :
    (V m c main_v19 : FVec F S128x128 .bf16) = blockDiag (m ((c : Thread nD τ).loc main_arg2)) := by
  unfold blockDiag eye8
  entry_contents
  rfl

theorem entry_weight2 (c : Dev nD) :
    (V m c main_v28 : FVec F S128x128 .bf16) = blockDiag (m ((c : Thread nD τ).loc main_arg4)) := by
  unfold blockDiag eye8
  entry_contents
  rfl

theorem entry_weight3 (c : Dev nD) :
    (V m c main_v37 : FVec F S128x128 .bf16) = blockDiag (m ((c : Thread nD τ).loc main_arg6)) := by
  unfold blockDiag eye8
  entry_contents
  rfl

theorem entry_bias1 (c : Dev nD) :
    (V m c main_v40 : FVec F S128 .f32) = tiledBias (m ((c : Thread nD τ).loc main_arg3)) := by
  unfold tiledBias
  entry_contents
  rfl

theorem entry_bias2 (c : Dev nD) :
    (V m c main_v43 : FVec F S128 .f32) = tiledBias (m ((c : Thread nD τ).loc main_arg5)) := by
  unfold tiledBias
  entry_contents
  rfl

theorem entry_bias3 (c : Dev nD) :
    (V m c main_v46 : FVec F S128 .f32) = tiledBias (m ((c : Thread nD τ).loc main_arg7)) := by
  unfold tiledBias
  entry_contents
  rfl

end Entry

end Cert.KernelIdeal.Packed

end
-- ==== Proof.Activation.lean ====
/-
  The activation, on the extended reals.

  Both programs apply the exponential-linear unit  elu v = v  for v > 0  and  eᵛ − 1  otherwise.  One writes the
  second branch as  exp (min v 0) − 1, the other as  1 · (exp w − 1)  with  w = 0 where v > 0 and w = v elsewhere.
  Where the branch is taken v ≤ 0, so min v 0 = v and w = v: the three are one function of v, on every extended real
  (no finiteness is used: only 1 · a = a and the order).
-/
import Idealize.ShloMosaic.PureOps.Ideal
import Idealize.ShloMosaic.PureOps.Ideal.Laws
import Idealize.ShloMosaic.Lib.ValueIdx

noncomputable section

namespace Cert.AtomMlp

open Idealize.ShloMosaic

/-- The exponential-linear unit on an extended real. -/
def elu (v : EReal) : EReal := if 0 < v then v else Ideal.exp v - 1

/-- The float pattern of 1.0 denotes the real 1. -/
theorem ofBits_one_f32 : Ideal.ofBits .f32 0x3F800000#32 = 1 := by
  simp [Ideal.ofBits, Ideal.ieee, -EReal.coe_mul]; norm_num

/-- The comparison "v > 0" as a bit. -/
theorem cmp_ogt_zero (v : EReal) : Ideal.cmp .ogt v 0 = if 0 < v then 1#1 else 0#1 := by
  unfold Ideal.cmp
  by_cases h : 0 < v <;> simp [h]

/-- The form with the exponent clamped from above: choose v where v > 0, else exp (min v 0) − 1. -/
theorem elu_of_min (v : EReal) :
    Scalar.select (Ideal.cmp .ogt v 0) v (Ideal.exp (min v 0) - 1) = elu v := by
  rw [cmp_ogt_zero]
  unfold elu
  by_cases h : 0 < v
  · rw [if_pos h, if_pos h]; exact ValueIdx.select_one _ _
  · rw [if_neg h, if_neg h, ValueIdx.select_zero, min_eq_left (not_lt.mp h)]

/-- The form through expm1 of the value with its positive part zeroed, times one. -/
theorem elu_of_expm1 (v : EReal) :
    Scalar.select (Ideal.cmp .ogt v 0) v (1 * (Ideal.exp (Scalar.select (Ideal.cmp .ogt v 0) 0 v) - 1)) = elu v := by
  rw [cmp_ogt_zero]
  unfold elu
  by_cases h : 0 < v
  · rw [if_pos h, if_pos h]; exact ValueIdx.select_one _ _
  · rw [if_neg h, if_neg h, ValueIdx.select_zero, ValueIdx.select_zero, one_mul]

end Cert.AtomMlp

end
-- ==== Proof.BlockDiagonal.lean ====
/-
  Eight rows packed side by side, and a block-diagonal weight.

  A row of 128 lanes holds 8 atoms × 16 features: lane 16·a + p is feature p of atom a.  A 128 × 128 weight that is
  δ(a, b) · W[p] at (lane a p, column of atom b) multiplies each atom's 16 features by the same 16 weights and lets no
  atom's features reach another atom's column: the 128-term sum collapses to the 16 terms of atom b, because x · 0 = 0
  and 0 · y = 0 hold on every extended real (no finiteness is needed).  Likewise an 8-term sum against the indicator
  row of atom b picks out entry b.
-/
import Idealize.ShloMosaic.PureOps.Ideal
import Mathlib.Algebra.BigOperators.Fin
import Mathlib.Logic.Equiv.Fin.Basic
import proofs.«414204_j87325275062873_3_alg».proof.Proof.Activation

noncomputable section

namespace Cert.AtomMlp

open Idealize.ShloMosaic

/-- Lane 16·a + p of a packed row: feature p of atom a. -/
def lane (a : Fin 8) (p : Fin 16) : Fin 128 := ⟨16 * a.val + p.val, by omega⟩

theorem lane_val (a : Fin 8) (p : Fin 16) : (lane a p).val = 16 * a.val + p.val := rfl

/-- Every lane is a lane of exactly one atom. -/
theorem lane_div_mod (l : Fin 128) : l = lane ⟨l.val / 16, by omega⟩ ⟨l.val % 16, by omega⟩ :=
  Fin.ext (by show l.val = 16 * (l.val / 16) + l.val % 16; omega)

/-- A sum over the 128 lanes is the sum over atoms of the sum over features. -/
theorem sum_lanes {M : Type*} [AddCommMonoid M] (f : Fin 128 → M) :
    ∑ l : Fin 128, f l = ∑ a : Fin 8, ∑ p : Fin 16, f (lane a p) := by
  have e : ∀ x : Fin 8 × Fin 16, (finProdFinEquiv x : Fin (8 * 16)) = lane x.1 x.2 := fun x =>
    Fin.ext (by show x.2.val + 16 * x.1.val = 16 * x.1.val + x.2.val; omega)
  rw [← Equiv.sum_comp (finProdFinEquiv : Fin 8 × Fin 16 ≃ Fin (8 * 16)) f, Fintype.sum_prod_type]
  exact Finset.sum_congr rfl fun a _ => Finset.sum_congr rfl fun p _ => congrArg f (e (a, p))

/-- The Kronecker delta on atoms, as an extended real. -/
def delta (a b : Fin 8) : EReal := if a = b then 1 else 0

/-- Against a column that is δ(a, b) · w[p] at lane (a, p), a packed row's 128-term product sum is atom b's 16-term sum. -/
theorem sum_blockDiag (h : Fin 128 → EReal) (w : Fin 16 → EReal) (col : Fin 128 → EReal) (b : Fin 8)
    (hcol : ∀ (a : Fin 8) (p : Fin 16), col (lane a p) = delta a b * w p) :
    ∑ l : Fin 128, h l * col l = ∑ p : Fin 16, h (lane b p) * w p := by
  rw [sum_lanes]
  rw [Finset.sum_eq_single b]
  · refine Finset.sum_congr rfl fun p _ => ?_
    rw [hcol, delta, if_pos rfl, one_mul]
  · intro a _ hab
    refine Finset.sum_eq_zero fun p _ => ?_
    rw [hcol, delta, if_neg hab, zero_mul, mul_zero]
  · intro hb; exact absurd (Finset.mem_univ b) hb

/-- Against the indicator of atom b, an 8-term product sum is entry b. -/
theorem sum_indicator (s : Fin 8 → EReal) (e : Fin 8 → EReal) (b : Fin 8) (he : ∀ j : Fin 8, e j = delta j b) :
    ∑ j : Fin 8, s j * e j = s b := by
  rw [Finset.sum_eq_single b]
  · rw [he, delta, if_pos rfl, mul_one]
  · intro j _ hjb
    rw [he, delta, if_neg hjb, mul_zero]
  · intro hb; exact absurd (Finset.mem_univ b) hb

/-! ## One atom's three layers -/

/-- One dense layer on one atom's 16 features: out[q] = elu (Σ_p x[p] · W[q, p] + bias[q]). -/
def denseRow (W : Fin 16 → Fin 16 → EReal) (bias : Fin 16 → EReal) (x : Fin 16 → EReal) : Fin 16 → EReal :=
  fun q => elu ((∑ p : Fin 16, x p * W q p) + bias q)

/-- The three layers in turn. -/
def mlpRow (W1 : Fin 16 → Fin 16 → EReal) (b1 : Fin 16 → EReal) (W2 : Fin 16 → Fin 16 → EReal) (b2 : Fin 16 → EReal)
    (W3 : Fin 16 → Fin 16 → EReal) (b3 : Fin 16 → EReal) (x : Fin 16 → EReal) : Fin 16 → EReal :=
  denseRow W3 b3 (denseRow W2 b2 (denseRow W1 b1 x))

/-- One layer on a packed row: with the block-diagonal weight and the bias repeated per atom, lane (b, q) of the
    result is atom b's dense layer at q. -/
theorem packed_layer (h : Fin 128 → EReal) (BD : Fin 128 → Fin 128 → EReal) (bt : Fin 128 → EReal)
    (W : Fin 16 → Fin 16 → EReal) (bias : Fin 16 → EReal)
    (hBD : ∀ (a : Fin 8) (p : Fin 16) (b : Fin 8) (q : Fin 16), BD (lane a p) (lane b q) = delta a b * W q p)
    (hbt : ∀ (b : Fin 8) (q : Fin 16), bt (lane b q) = bias q) (b : Fin 8) (q : Fin 16) :
    elu ((∑ l : Fin 128, h l * BD l (lane b q)) + bt (lane b q)) = denseRow W bias (fun p => h (lane b p)) q := by
  unfold denseRow
  rw [sum_blockDiag h (W q) (fun l => BD l (lane b q)) b (fun a p => hBD a p b q), hbt]

end Cert.AtomMlp

end
-- ==== Proof.OperandsAt.lean ====
/-
  The packed operands read at an entry.

  With lane (a, p) = 16·a + p and atom (R, a) = 8·R + a:
    the packed rows at (R, lane a p) are the rows at (atom R a, p);
    the packed scalars at (R, a) are the per-atom scalar at atom R a;
    I₈ ⊗ Wᵀ at (lane a p, lane b q) is δ(a, b) · W[q, p];
    the repeated bias at lane (b, q) is bias[q];
    the selector at (j, lane b q) is δ(j, b)   (the lane's atom is lane ÷ 16 = b).
  All are index arithmetic on row-major positions; the two integer tables (the 8 × 8 identity and lane ÷ 16 over the
  128 lanes) are small enough to be checked entry by entry.
-/
import proofs.«414204_j87325275062873_3_alg».proof.Proof.HostOperands
import proofs.«414204_j87325275062873_3_alg».proof.Proof.BlockDiagonal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Packed

open Cert.KernelIdeal Cert.KernelIdeal.Gen Idealize.ShloMosaic Idealize.ShloMosaic.ValueIdx Cert.AtomMlp

/-- Atom 8·R + a: atom a of packed row R. -/
def atom (R : Fin 500000) (a : Fin 8) : Fin 4000000 := ⟨8 * R.val + a.val, by omega⟩

/-- A one-bit word as a float: 1 ↦ 1, 0 ↦ 0. -/
theorem uitofp_bit (c : Prop) [Decidable c] :
    FloatOps.uitofp (F := Ideal) .f32 (if c then 1#1 else 0#1) = if c then (1 : EReal) else 0 := by
  by_cases h : c
  · rw [if_pos h, if_pos h]; show (((1#1 : BitVec 1).toNat : ℝ) : EReal) = 1; simp
  · rw [if_neg h, if_neg h]; show (((0#1 : BitVec 1).toNat : ℝ) : EReal) = 0; simp

/-! ## The re-laid rows and scalars -/

theorem packedRows_apply (x : FVec Ideal S4000000x16 .f32) (R : Fin 500000) (a : Fin 8) (p : Fin 16) :
    packedRows x (ix2 R (lane a p)) = x (ix2 (atom R a) p) := by
  unfold packedRows
  refine shapeCast_apply x _ (ix2 R (lane a p)) (ix2 (atom R a) p) ?_
  rw [Shape.rowMajor_val_two, Shape.rowMajor_val_two]
  show (8 * R.val + a.val) * 16 + p.val = R.val * 128 + (16 * a.val + p.val)
  omega

theorem packedScalars_apply (charge : FVec Ideal S1024 .f32) (part : IVec S4000000 32) (R : Fin 500000) (a : Fin 8) :
    packedScalars charge part (ix2 R a) = rowScalar charge part (ix1 (atom R a)) := by
  unfold packedScalars
  refine shapeCast_apply _ _ (ix2 R a) (ix1 (atom R a)) ?_
  rw [Shape.rowMajor_val_two, Shape.rowMajor_val_one]
  show 8 * R.val + a.val = R.val * 8 + a.val
  omega

/-! ## The identity and the block-diagonal weight -/

/-- The two iotas compared, entry by entry over the 8 × 8 table. -/
theorem eye_bits : ∀ a b : Fin 8,
    IntOp.cmpi .eq (IntOp.addi (BitVec.ofNat 32 a.val) (0#32)) (BitVec.ofNat 32 b.val) = if a = b then 1#1 else 0#1 := by
  decide

theorem eye8_apply (a b : Fin 8) : eye8 (F := Ideal) (ix2 a b) = delta a b := by
  unfold eye8 delta
  show FloatOps.uitofp (F := Ideal) .f32 (IntOp.cmpi .eq (IntOp.addi (BitVec.ofNat 32 a.val)
    (broadcastInDim S8x8 ![] bcast_S_S8x8 (constantI S_ 32 0#32) (ix2 a b))) (BitVec.ofNat 32 b.val)) = _
  rw [show broadcastInDim S8x8 ![] bcast_S_S8x8 (constantI S_ 32 0#32) (ix2 a b) = 0#32 from
    broadcastInDim_apply _ _ _ (ix2 a b) ix0 (fun z => z.elim0)]
  rw [eye_bits, uitofp_bit]

theorem blockDiag_apply (w : FVec Ideal S16x16 .f32) (a : Fin 8) (p : Fin 16) (b : Fin 8) (q : Fin 16) :
    blockDiag w (ix2 (lane a p) (lane b q)) = delta a b * w (ix2 q p) := by
  unfold blockDiag
  rw [truncf_apply]
  refine (shapeCast_apply _ _ (ix2 (lane a p) (lane b q)) (ix4 a p b q) ?_).trans ?_
  · rw [Shape.rowMajor_val_four, Shape.rowMajor_val_two]
    show ((a.val * 16 + p.val) * 8 + b.val) * 16 + q.val = (16 * a.val + p.val) * 128 + (16 * b.val + q.val)
    omega
  rw [mulf_apply]
  have hl : broadcastInDim S8x16x8x16 ![0, 1, 2, 3] bcast_S8x1x8x1_S8x16x8x16_0_1_2_3
      (broadcastInDim S8x1x8x1 ![0, 2] bcast_S8x8_S8x1x8x1_0_2 (eye8 (F := Ideal))) (ix4 a p b q) = delta a b := by
    refine (broadcastInDim_apply _ _ _ (ix4 a p b q) (ix4 a (0 : Fin 1) b (0 : Fin 1)) fun z => ?_).trans ?_
    · match z with
      | ⟨0, _⟩ => rfl
      | ⟨1, _⟩ => rfl
      | ⟨2, _⟩ => rfl
      | ⟨3, _⟩ => rfl
    refine (broadcastInDim_apply _ _ _ (ix4 a (0 : Fin 1) b (0 : Fin 1)) (ix2 a b) fun z => ?_).trans (eye8_apply a b)
    match z with
    | ⟨0, _⟩ => rfl
    | ⟨1, _⟩ => rfl
  have hr : broadcastInDim S8x16x8x16 ![0, 1, 2, 3] bcast_S1x16x1x16_S8x16x8x16_0_1_2_3
      (broadcastInDim S1x16x1x16 ![1, 3] bcast_S16x16_S1x16x1x16_1_3 (transpose S16x16 [1, 0] w transposes_S16x16_S16x16_1_0))
      (ix4 a p b q) = w (ix2 q p) := by
    refine (broadcastInDim_apply _ _ _ (ix4 a p b q) (ix4 (0 : Fin 1) p (0 : Fin 1) q) fun z => ?_).trans ?_
    · match z with
      | ⟨0, _⟩ => rfl
      | ⟨1, _⟩ => rfl
      | ⟨2, _⟩ => rfl
      | ⟨3, _⟩ => rfl
    refine (broadcastInDim_apply _ _ _ (ix4 (0 : Fin 1) p (0 : Fin 1) q) (ix2 p q) fun z => ?_).trans
      (transpose_ix2_apply w _ p q)
    match z with
    | ⟨0, _⟩ => rfl
    | ⟨1, _⟩ => rfl
  rw [hl, hr]

/-! ## The repeated bias -/

theorem tiledBias_apply (bias : FVec Ideal S16 .f32) (b : Fin 8) (q : Fin 16) :
    tiledBias bias (ix1 (lane b q)) = bias (ix1 q) := by
  unfold tiledBias
  refine (shapeCast_apply _ _ (ix1 (lane b q)) (ix2 b q) ?_).trans ?_
  · rw [Shape.rowMajor_val_two, Shape.rowMajor_val_one]
    show b.val * 16 + q.val = 16 * b.val + q.val
    omega
  refine (broadcastInDim_apply _ _ _ (ix2 b q) (ix2 (0 : Fin 1) q) fun z => ?_).trans
    (shapeCast_a_1a_apply bias _ (0 : Fin 1) q)
  match z with
  | ⟨0, _⟩ => rfl
  | ⟨1, _⟩ => rfl

/-! ## The selector -/

/-- Lane ÷ 16 rounded down, on one lane number: the operations of `laneAtom` on a single word. -/
def floorDiv16 (x : BitVec 32) : BitVec 32 :=
  Scalar.select
    (IntOp.andi (IntOp.cmpi .ne (if x = 0 then (0 : BitVec 32) else if x.msb then -1 else 1)
        (if (16#32 : BitVec 32) = 0 then (0 : BitVec 32) else if (16#32 : BitVec 32).msb then -1 else 1))
      (IntOp.cmpi .ne (IntOp.remsi .host x 16#32) 0#32))
    (IntOp.subi (IntOp.divsi .host x 16#32) 1#32)
    (IntOp.divsi .host x 16#32)

/-- Over the 128 lanes that is the lane's atom number. -/
theorem floorDiv16_lane : ∀ c : Fin 128, floorDiv16 (BitVec.ofNat 32 c.val) = BitVec.ofNat 32 (c.val / 16) := by
  decide +kernel

/-- An atom number against a row number, as words. -/
theorem atom_bits : ∀ j b : Fin 8,
    IntOp.cmpi .eq (BitVec.ofNat 32 b.val) (BitVec.ofNat 32 j.val) = if j = b then 1#1 else 0#1 := by
  decide

theorem laneAtom_apply (c : Fin 128) : laneAtom (ix2 (0 : Fin 1) c) = BitVec.ofNat 32 (c.val / 16) := by
  rw [← floorDiv16_lane c]
  have hrow : laneRow (ix2 (0 : Fin 1) c) = BitVec.ofNat 32 c.val := by
    unfold laneRow
    refine (broadcastInDim_apply _ _ _ (ix2 (0 : Fin 1) c) (ix1 c) fun z => ?_).trans rfl
    match z with
    | ⟨0, _⟩ => rfl
  have hs : ∀ (v : BitVec 32) (i : S1x128.Idx), broadcastInDim S1x128 ![] bcast_S_S1x128 (constantI S_ 32 v) i = v := fun v i =>
    broadcastInDim_apply _ _ _ i ix0 (fun z => z.elim0)
  have h16 : sixteen (ix2 (0 : Fin 1) c) = 16#32 := by unfold sixteen; exact hs _ _
  have hsg : broadcastInDim S1x128 ![] bcast_S_S1x128 (signi (id (constantI S_ 32 16#32))) (ix2 (0 : Fin 1) c)
      = (if (16#32 : BitVec 32) = 0 then (0 : BitVec 32) else if (16#32 : BitVec 32).msb then -1 else 1) :=
    broadcastInDim_apply _ _ _ (ix2 (0 : Fin 1) c) ix0 (fun z => z.elim0)
  unfold laneAtom floorDiv16
  show Scalar.select (IntOp.andi (IntOp.cmpi .ne (signi laneRow (ix2 (0 : Fin 1) c)) _) (IntOp.cmpi .ne (IntOp.remsi .host (laneRow (ix2 (0 : Fin 1) c)) (sixteen (ix2 (0 : Fin 1) c))) _))
    (IntOp.subi (IntOp.divsi .host (laneRow (ix2 (0 : Fin 1) c)) (sixteen (ix2 (0 : Fin 1) c))) _) (IntOp.divsi .host (laneRow (ix2 (0 : Fin 1) c)) (sixteen (ix2 (0 : Fin 1) c))) = _
  rw [hsg, hs, hs, h16]
  show Scalar.select (IntOp.andi (IntOp.cmpi .ne (if laneRow (ix2 (0 : Fin 1) c) = 0 then 0 else if (laneRow (ix2 (0 : Fin 1) c)).msb then -1 else 1) _) _) _ _ = _
  rw [hrow]

theorem selector_apply (j b : Fin 8) (q : Fin 16) : selector (F := Ideal) (ix2 j (lane b q)) = delta j b := by
  unfold selector delta
  have hl : broadcastInDim S8x128 ![0, 1] bcast_S1x128_S8x128_0_1 laneAtom (ix2 j (lane b q)) = BitVec.ofNat 32 b.val := by
    refine (broadcastInDim_apply _ _ _ (ix2 j (lane b q)) (ix2 (0 : Fin 1) (lane b q)) fun z => ?_).trans ?_
    · match z with
      | ⟨0, _⟩ => rfl
      | ⟨1, _⟩ => rfl
    rw [laneAtom_apply]
    congr 1
    show (16 * b.val + q.val) / 16 = b.val
    omega
  have hr : broadcastInDim S8x128 ![0, 1] bcast_S8x1_S8x128_0_1 (broadcastInDim S8x1 ![0] bcast_S8_S8x1_0 (iotaInDim S8 32 0)) (ix2 j (lane b q))
      = BitVec.ofNat 32 j.val := by
    refine (broadcastInDim_apply _ _ _ (ix2 j (lane b q)) (ix2 j (0 : Fin 1)) fun z => ?_).trans ?_
    · match z with
      | ⟨0, _⟩ => rfl
      | ⟨1, _⟩ => rfl
    refine (broadcastInDim_apply _ _ _ (ix2 j (0 : Fin 1)) (ix1 j) fun z => ?_).trans rfl
    match z with
    | ⟨0, _⟩ => rfl
  show FloatOps.uitofp (F := Ideal) .f32 (IntOp.cmpi .eq
    (broadcastInDim S8x128 ![0, 1] bcast_S1x128_S8x128_0_1 laneAtom (ix2 j (lane b q)))
    (broadcastInDim S8x128 ![0, 1] bcast_S8x1_S8x128_0_1 (broadcastInDim S8x1 ![0] bcast_S8_S8x1_0 (iotaInDim S8 32 0)) (ix2 j (lane b q)))) = _
  rw [hl, hr, atom_bits, uitofp_bit]

end Cert.KernelIdeal.Packed

end
-- ==== Proof.LibPlainDot.lean ====
/-
  A plain matrix product read at an entry (general: it imports the library only).

  For a contraction of an A × K array with a K × B array over the one shared axis (rows of the left by columns of the
  right, no batch axis), the sum over the contraction index at result entry (n, q) is the textbook
  Σ_p  left[n, p] · right[p, q].  Both the host product and the matrix unit's product with a zero accumulator are
  this sum on the extended reals, so one statement serves both.
-/
import Idealize.ShloMosaic.PureOps.Ideal
import Idealize.ShloMosaic.PureOps.Ideal.Laws
import Idealize.ShloMosaic.Lib.ValueIdx
import Idealize.ShloMosaic.Lib.Pipeline.Value

noncomputable section

namespace Cert.Lib.PlainDot

open Idealize.ShloMosaic Idealize.ShloMosaic.ValueIdx

variable {sl sr so : Shape} (d : DotDims sl sr so)

/-- The left operand's coordinate on its one free axis is the result's first coordinate. -/
theorem lhsIdx_val_free {a : Fin sl.rank} (hb : d.lhsBatch = []) (hn : d.lhsNonContracting = [a])
    (j : so.Idx) (k : d.contr.Idx) (h0 : 0 < so.rank) : (d.lhsIdx j k a).val = (j ⟨0, h0⟩).val := by
  have hnb : a ∉ d.lhsBatch := by rw [hb]; exact List.not_mem_nil
  have hmn : a ∈ d.lhsNonContracting := by rw [hn]; exact List.mem_singleton.mpr rfl
  unfold DotDims.lhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- The right operand's coordinate on its one free axis is the result's second coordinate. -/
theorem rhsIdx_val_free {a : Fin sr.rank} {al : Fin sl.rank} (hlb : d.lhsBatch = []) (hln : d.lhsNonContracting = [al])
    (hb : d.rhsBatch = []) (hn : d.rhsNonContracting = [a])
    (j : so.Idx) (k : d.contr.Idx) (h1 : 1 < so.rank) : (d.rhsIdx j k a).val = (j ⟨1, h1⟩).val := by
  have hnb : a ∉ d.rhsBatch := by rw [hb]; exact List.not_mem_nil
  have hmn : a ∈ d.rhsNonContracting := by rw [hn]; exact List.mem_singleton.mpr rfl
  unfold DotDims.rhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

/-- The product of an A × K by a K × B array at entry (n, q), as the sum over the K shared positions. -/
theorem plainDot_sum {A K B : Nat} (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (lhs : (⟨2, ![A, K]⟩ : Shape).Idx → EReal) (rhs : (⟨2, ![K, B]⟩ : Shape).Idx → EReal) (n : Fin A) (q : Fin B) :
    ∑ k : d.contr.Idx, lhs (d.lhsIdx (ix2 n q) k) * rhs (d.rhsIdx (ix2 n q) k)
      = ∑ p : Fin K, lhs (ix2 n p) * rhs (ix2 p q) := by
  have hr : d.contr.rank = 1 := by rw [d.rank_contr, hlc]; rfl
  have hs : d.contr.size ⟨0, by omega⟩ = K := by
    have := d.size_contr 0 (by rw [hlc]; exact Nat.one_pos)
    rw [this]; simp [hlc]
  rw [← Equiv.sum_comp (contrEquiv1 d K hr hs).symm]
  refine Finset.sum_congr rfl fun p _ => ?_
  have hcv : (((contrEquiv1 d K hr hs).symm p) ⟨0, by omega⟩ : ℕ) = p.val := contrEquiv1_symm_val d K hr hs p
  have el : d.lhsIdx (ix2 n q) ((contrEquiv1 d K hr hs).symm p) = ix2 n p :=
    Shape.idx_ext₂ (lhsIdx_val_free d hlb hln _ _ Nat.two_pos)
      ((d.lhsIdx_val_of_single hlc _ _).trans hcv)
  have er : d.rhsIdx (ix2 n q) ((contrEquiv1 d K hr hs).symm p) = ix2 p q :=
    Shape.idx_ext₂ ((d.rhsIdx_val_of_single hrc _ _).trans hcv)
      (rhsIdx_val_free d hlb hln hrb hrn _ _ Nat.one_lt_two)
  rw [el, er]

end Cert.Lib.PlainDot

end
-- ==== Proof.BlockValue.lean ====
/-
  What the kernel body leaves in its output block, at an entry.

  The body loads a block of 4000 packed rows, the 4000 × 8 block of per-atom scalars, the 8 × 128 selector, three
  128 × 128 weights and three 128-lane biases, and stores ONE 4000 × 128 block:
      act (act (act (x · B₁ + c₁) · B₂ + c₂) · B₃ + c₃)  +  s · E
  where act chooses v where v > 0 and exp (min v 0) − 1 elsewhere.  When each Bᵢ is I₈ ⊗ Wᵢᵀ, each cᵢ a bias repeated
  per atom and E the lane-to-atom indicator, entry (r, lane b q) of that block is the three dense layers of atom b of
  row r at feature q, plus that atom's scalar.
-/
import proofs.«414204_j87325275062873_3_alg».proof.Proof.Gen.KernelIdeal.Frame
import proofs.«414204_j87325275062873_3_alg».proof.Proof.BlockDiagonal
import proofs.«414204_j87325275062873_3_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx Cert.AtomMlp Cert.Lib.PlainDot

theorem hz2 : (![0, 0] : Fin 2 → Nat) = fun _ => 0 := funext fun a => by fin_cases a <;> rfl
theorem hz1 : (![0] : Fin 1 → Nat) = fun _ => 0 := funext fun a => by fin_cases a <;> rfl

/-! ## The body's value in one vocabulary -/

/-- Rows times a 128 × 128 matrix (into a zero accumulator), plus a 128-lane row added to every row. -/
def affine (h : FVec Ideal S4000x128 .f32) (B : FVec Ideal S128x128 .bf16) (cb : Vec Ideal S128 .f32) : FVec Ideal S4000x128 .f32 :=
  addf (matmul dot_S4000x128_S128x128_S4000x128_1_0_0_1_n_n none (truncf .bf16 h bitsLt_bf16_f32) B (constant S4000x128 .f32 0x00000000#32))
    (broadcastTo S4000x128 (shapeCast S1x128 cb shapeCasts_S128_S1x128) broadcasts_S1x128_S4000x128)

/-- The activation as the body writes it. -/
def act (u : FVec Ideal S4000x128 .f32) : FVec Ideal S4000x128 .f32 :=
  select (cmpf .ogt u (broadcast S4000x128 (Scalar.ofBits .f32 0x00000000#32))) u
    (subf (exp (minimumf u (broadcast S4000x128 (Scalar.ofBits .f32 0x00000000#32)))) (broadcast S4000x128 (Scalar.ofBits .f32 0x3F800000#32)))

/-- The per-atom scalars spread over their atoms' lanes by the selector product. -/
def spread (s : FVec Ideal S4000x8 .f32) (E : FVec Ideal S8x128 .f32) : FVec Ideal S4000x128 .f32 :=
  matmul dot_S4000x8_S8x128_S4000x128_1_0_0_1_n_n (some .fp32) s E (constant S4000x128 .f32 0x00000000#32)

/-- The one covering store's value, in that vocabulary. -/
theorem out_eq (x0 : Vec Ideal S4000x128 .f32) (x1 : Vec Ideal S4000x8 .f32) (x2 : Vec Ideal S8x128 .f32) (x3 : Vec Ideal S128x128 .bf16)
    (x4 : Vec Ideal S128 .f32) (x5 : Vec Ideal S128x128 .bf16) (x6 : Vec Ideal S128 .f32) (x7 : Vec Ideal S128x128 .bf16) (x8 : Vec Ideal S128 .f32) :
    out0_9 x0 x1 x2 x3 x4 x5 x6 x7 x8
      = addf (act (affine (act (affine (act (affine x0 x3 x4)) x5 x6)) x7 x8)) (spread x1 x2) := by
  unfold out0_9
  rw [View.canon_unit_zero hz2]
  simp only [View.ld_unit_zero (S := S4000x128) hz2, View.ld_unit_zero (S := S4000x8) hz2, View.ld_unit_zero (S := S8x128) hz2,
    View.ld_unit_zero (S := S128x128) hz2, View.ld_unit_zero (S := S128) hz1]
  unfold k0_pay1 k0_pay2 k0_pay3 k0_pay4 k0_pay6 k0_pay7 k0_pay5
  simp only [shapeCast_self]
  rfl

/-! ## Each piece at an entry -/

theorem affine_apply (h : FVec Ideal S4000x128 .f32) (B : FVec Ideal S128x128 .bf16) (cb : Vec Ideal S128 .f32)
    (r : Fin 4000) (c : Fin 128) :
    affine h B cb (ix2 r c) = (∑ l : Fin 128, h (ix2 r l) * B (ix2 l c)) + cb (ix1 c) := by
  unfold affine
  rw [addf_apply]
  congr 1
  · show FloatOps.matmul dot_S4000x128_S128x128_S4000x128_1_0_0_1_n_n none _ B (constant S4000x128 .f32 0x00000000#32) (ix2 r c) = _
    rw [Ideal.matmul_constant_zero_apply,
      plainDot_sum dot_S4000x128_S128x128_S4000x128_1_0_0_1_n_n rfl rfl rfl rfl rfl rfl _ B r c]
    rfl
  · exact (broadcastTo_1b_ab_apply _ _ r c).trans (shapeCast_a_1a_apply cb _ (0 : Fin 1) c)

theorem act_apply (u : FVec Ideal S4000x128 .f32) (i : S4000x128.Idx) : act u i = elu (u i) := by
  unfold act
  show Scalar.select (Ideal.cmp .ogt (u i) (Ideal.ofBits .f32 0x00000000#32)) (u i)
    (Ideal.exp (min (u i) (Ideal.ofBits .f32 0x00000000#32)) - Ideal.ofBits .f32 0x3F800000#32) = _
  rw [Ideal.ofBits_zero_f32, ofBits_one_f32]
  exact elu_of_min (u i)

theorem spread_apply (s : FVec Ideal S4000x8 .f32) (E : FVec Ideal S8x128 .f32)
    (hE : ∀ (j b : Fin 8) (q : Fin 16), E (ix2 j (lane b q)) = delta j b) (r : Fin 4000) (b : Fin 8) (q : Fin 16) :
    spread s E (ix2 r (lane b q)) = s (ix2 r b) := by
  unfold spread
  show FloatOps.matmul dot_S4000x8_S8x128_S4000x128_1_0_0_1_n_n (some .fp32) s E (constant S4000x128 .f32 0x00000000#32) (ix2 r (lane b q)) = _
  rw [Ideal.matmul_constant_zero_apply,
    plainDot_sum dot_S4000x8_S8x128_S4000x128_1_0_0_1_n_n rfl rfl rfl rfl rfl rfl s E r (lane b q)]
  exact sum_indicator (fun j => s (ix2 r j)) (fun j => E (ix2 j (lane b q))) b (fun j => hE j b q)

/-- One packed layer at lane (b, q): atom b's dense layer at feature q. -/
theorem packedLayer_apply (h : FVec Ideal S4000x128 .f32) (B : FVec Ideal S128x128 .bf16) (cb : Vec Ideal S128 .f32)
    (W : Fin 16 → Fin 16 → EReal) (bias : Fin 16 → EReal)
    (hB : ∀ (a : Fin 8) (p : Fin 16) (b : Fin 8) (q : Fin 16), B (ix2 (lane a p) (lane b q)) = delta a b * W q p)
    (hc : ∀ (b : Fin 8) (q : Fin 16), cb (ix1 (lane b q)) = bias q) (r : Fin 4000) (b : Fin 8) (q : Fin 16) :
    act (affine h B cb) (ix2 r (lane b q)) = denseRow W bias (fun p => h (ix2 r (lane b p))) q := by
  rw [act_apply, affine_apply]
  exact packed_layer (fun l => h (ix2 r l)) (fun l c => B (ix2 l c)) (fun c => cb (ix1 c)) W bias hB hc b q

/-! ## The block at an entry -/

/-- With block-diagonal weights, repeated biases and the lane-to-atom selector, the stored block at (r, lane b q) is
    the three dense layers of atom b of row r at feature q, plus that atom's scalar. -/
theorem block_apply (x0 : Vec Ideal S4000x128 .f32) (x1 : Vec Ideal S4000x8 .f32) (x2 : Vec Ideal S8x128 .f32) (x3 : Vec Ideal S128x128 .bf16)
    (x4 : Vec Ideal S128 .f32) (x5 : Vec Ideal S128x128 .bf16) (x6 : Vec Ideal S128 .f32) (x7 : Vec Ideal S128x128 .bf16) (x8 : Vec Ideal S128 .f32)
    (W1 W2 W3 : Fin 16 → Fin 16 → EReal) (b1 b2 b3 : Fin 16 → EReal)
    (h2 : ∀ (j b : Fin 8) (q : Fin 16), x2 (ix2 j (lane b q)) = delta j b)
    (h3 : ∀ (a : Fin 8) (p : Fin 16) (b : Fin 8) (q : Fin 16), x3 (ix2 (lane a p) (lane b q)) = delta a b * W1 q p)
    (h4 : ∀ (b : Fin 8) (q : Fin 16), x4 (ix1 (lane b q)) = b1 q)
    (h5 : ∀ (a : Fin 8) (p : Fin 16) (b : Fin 8) (q : Fin 16), x5 (ix2 (lane a p) (lane b q)) = delta a b * W2 q p)
    (h6 : ∀ (b : Fin 8) (q : Fin 16), x6 (ix1 (lane b q)) = b2 q)
    (h7 : ∀ (a : Fin 8) (p : Fin 16) (b : Fin 8) (q : Fin 16), x7 (ix2 (lane a p) (lane b q)) = delta a b * W3 q p)
    (h8 : ∀ (b : Fin 8) (q : Fin 16), x8 (ix1 (lane b q)) = b3 q)
    (r : Fin 4000) (b : Fin 8) (q : Fin 16) :
    out0_9 x0 x1 x2 x3 x4 x5 x6 x7 x8 (ix2 r (lane b q))
      = mlpRow W1 b1 W2 b2 W3 b3 (fun p => x0 (ix2 r (lane b p))) q + x1 (ix2 r b) := by
  rw [out_eq, addf_apply, spread_apply x1 x2 h2, packedLayer_apply _ x7 x8 W3 b3 h7 h8]
  unfold mlpRow
  congr 2
  funext p
  rw [packedLayer_apply _ x5 x6 W2 b2 h5 h6]
  congr 1
  funext p'
  rw [packedLayer_apply _ x3 x4 W1 b1 h3 h4]

end Cert.KernelIdeal.Block

end
-- ==== Proof.Spec.lean ====
/-
  The result both programs compute, as one function of the argument arrays.

  Entry (n, q) of the N × 16 result is the three dense layers applied to row n, read at feature q, plus the per-row
  scalar s[n]:   out[n, q] = mlp (x[n, ·]) [q] + s[n].
-/
import proofs.«414204_j87325275062873_3_alg».proof.Proof.BlockDiagonal
import Idealize.ShloMosaic.Lib.ValueIdx

noncomputable section

namespace Cert.AtomMlp

open Idealize.ShloMosaic Idealize.ShloMosaic.ValueIdx

/-- One entry of the result. -/
def entry (x : (⟨2, ![4000000, 16]⟩ : Shape).Idx → EReal) (s : (⟨1, ![4000000]⟩ : Shape).Idx → EReal)
    (w1 : (⟨2, ![16, 16]⟩ : Shape).Idx → EReal) (b1 : (⟨1, ![16]⟩ : Shape).Idx → EReal)
    (w2 : (⟨2, ![16, 16]⟩ : Shape).Idx → EReal) (b2 : (⟨1, ![16]⟩ : Shape).Idx → EReal)
    (w3 : (⟨2, ![16, 16]⟩ : Shape).Idx → EReal) (b3 : (⟨1, ![16]⟩ : Shape).Idx → EReal)
    (n : Fin 4000000) (q : Fin 16) : EReal :=
  mlpRow (fun q p => w1 (ix2 q p)) (fun q => b1 (ix1 q)) (fun q p => w2 (ix2 q p)) (fun q => b2 (ix1 q))
    (fun q p => w3 (ix2 q p)) (fun q => b3 (ix1 q)) (fun p => x (ix2 n p)) q + s (ix1 n)

/-- The whole result array. -/
def result (x : (⟨2, ![4000000, 16]⟩ : Shape).Idx → EReal) (s : (⟨1, ![4000000]⟩ : Shape).Idx → EReal)
    (w1 : (⟨2, ![16, 16]⟩ : Shape).Idx → EReal) (b1 : (⟨1, ![16]⟩ : Shape).Idx → EReal)
    (w2 : (⟨2, ![16, 16]⟩ : Shape).Idx → EReal) (b2 : (⟨1, ![16]⟩ : Shape).Idx → EReal)
    (w3 : (⟨2, ![16, 16]⟩ : Shape).Idx → EReal) (b3 : (⟨1, ![16]⟩ : Shape).Idx → EReal) :
    (⟨2, ![4000000, 16]⟩ : Shape).Idx → EReal :=
  fun i => entry x s w1 b1 w2 b2 w3 b3 (i 0) (i 1)

theorem result_apply (x : (⟨2, ![4000000, 16]⟩ : Shape).Idx → EReal) (s : (⟨1, ![4000000]⟩ : Shape).Idx → EReal)
    (w1 : (⟨2, ![16, 16]⟩ : Shape).Idx → EReal) (b1 : (⟨1, ![16]⟩ : Shape).Idx → EReal)
    (w2 : (⟨2, ![16, 16]⟩ : Shape).Idx → EReal) (b2 : (⟨1, ![16]⟩ : Shape).Idx → EReal)
    (w3 : (⟨2, ![16, 16]⟩ : Shape).Idx → EReal) (b3 : (⟨1, ![16]⟩ : Shape).Idx → EReal) (n : Fin 4000000) (q : Fin 16) :
    result x s w1 b1 w2 b2 w3 b3 (ix2 n q) = entry x s w1 b1 w2 b2 w3 b3 n q := rfl

/-- The atom of a lane and the feature of a lane. -/
def laneAtomOf (l : Fin 128) : Fin 8 := ⟨l.val / 16, by omega⟩
def laneFeat (l : Fin 128) : Fin 16 := ⟨l.val % 16, by omega⟩

theorem laneAtomOf_lane (b : Fin 8) (q : Fin 16) : laneAtomOf (lane b q) = b :=
  Fin.ext (by show (16 * b.val + q.val) / 16 = b.val; omega)
theorem laneFeat_lane (b : Fin 8) (q : Fin 16) : laneFeat (lane b q) = q :=
  Fin.ext (by show (16 * b.val + q.val) % 16 = q.val; omega)

end Cert.AtomMlp

end
-- ==== Proof.KernelArray.lean ====
/-
  The kernel program's result array.

  The grid has 125 points; point t stages rows 4000·t … 4000·t + 3999 of the packed arrays (the weights, biases and
  selector whole), and writes back the same rows of the packed result.  So the packed result at (R, lane b q) is the
  result entry of atom 8·R + b at feature q; the 125 blocks tile the 500000 packed rows; and the final re-laying of the
  500000 × 128 array as 4000000 × 16 puts entry (n, q) at packed position (n ÷ 8, lane (n mod 8) q): the program's
  result is the specified array.
-/
import proofs.«414204_j87325275062873_3_alg».proof.Proof.Gen.KernelIdeal.Frame
import proofs.«414204_j87325275062873_3_alg».proof.Proof.HostOperands
import proofs.«414204_j87325275062873_3_alg».proof.Proof.OperandsAt
import proofs.«414204_j87325275062873_3_alg».proof.Proof.BlockValue
import proofs.«414204_j87325275062873_3_alg».proof.Proof.Spec
import Idealize.ShloMosaic.Lib.Pipeline.Value
import Idealize.ShloMosaic.Lib.StableHlo.Run

set_option maxRecDepth 16384

noncomputable section

namespace Cert.KernelIdeal.Packed

open Cert.KernelIdeal Cert.KernelIdeal.Gen Idealize.ShloMosaic Idealize.ShloMosaic.TcCoe Idealize.ShloMosaic.ValueIdx Idealize.SL.Sem Cert.AtomMlp
open Idealize.ShloMosaic.Pipeline (Dat)

variable (m : (ℓ : Loc nD τ sig) → Buf (Elt Ideal) ℓ) (ρ : Dev nD → PrngReg)

/-! ## The packed result -/

/-- The packed result: at (R, l) the result entry of atom 8·R + (l ÷ 16) at feature l mod 16. -/
def packedOut (x : FVec Ideal S4000000x16 .f32) (s : FVec Ideal S4000000 .f32) (w1 : FVec Ideal S16x16 .f32) (b1 : FVec Ideal S16 .f32)
    (w2 : FVec Ideal S16x16 .f32) (b2 : FVec Ideal S16 .f32) (w3 : FVec Ideal S16x16 .f32) (b3 : FVec Ideal S16 .f32) :
    FVec Ideal S500000x128 .f32 :=
  fun i => entry x s w1 b1 w2 b2 w3 b3 (atom (i 0) (laneAtomOf (i 1))) (laneFeat (i 1))

theorem packedOut_apply (x : FVec Ideal S4000000x16 .f32) (s : FVec Ideal S4000000 .f32) (w1 : FVec Ideal S16x16 .f32) (b1 : FVec Ideal S16 .f32)
    (w2 : FVec Ideal S16x16 .f32) (b2 : FVec Ideal S16 .f32) (w3 : FVec Ideal S16x16 .f32) (b3 : FVec Ideal S16 .f32)
    (R : Fin 500000) (b : Fin 8) (q : Fin 16) :
    packedOut x s w1 b1 w2 b2 w3 b3 (ix2 R (lane b q)) = entry x s w1 b1 w2 b2 w3 b3 (atom R b) q := by
  show entry x s w1 b1 w2 b2 w3 b3 (atom R (laneAtomOf (lane b q))) (laneFeat (lane b q)) = _
  rw [laneAtomOf_lane, laneFeat_lane]

/-! ## The index maps over the grid -/

/-- Point t's blocks: the row-blocked windows sit at block row t, the whole-array windows at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

/-- The grid has 125 points. -/
theorem point_lt (t : Fin cfg0.N) : t.val < 125 := Nat.lt_of_lt_of_eq t.isLt N_0

/-- Row r of point t's block is packed row 4000·t + r. -/
def blockRow (t : Fin cfg0.N) (r : Fin 4000) : Fin 500000 :=
  ⟨4000 * t.val + r.val, by have := point_lt t; omega⟩

/-! ## Each staged block at an entry -/

theorem rows_block (c : Dev nD) (t : Fin cfg0.N) (r : Fin 4000) (b : Fin 8) (p : Fin 16) :
    iblk m c 0 t (ix2 r (lane b p)) = (m ((c : Thread nD τ).loc main_arg0)) (ix2 (atom (blockRow t r) b) p) := by
  show V m c main_v9 (((cfg0.win 0).blk t).view.emb (ix2 r (lane b p))) = _
  rw [entry_rows]
  refine (congrArg (packedRows (F := Ideal) (m ((c : Thread nD τ).loc main_arg0))) ?_).trans (packedRows_apply _ (blockRow t r) b p)
  obtain ⟨e0, e1, -⟩ := idx_facts t
  funext a; apply Fin.ext
  match a with
  | ⟨0, _⟩ => show win0_0.index t (0 : Fin 2) * 4000 + 1 * r.val = 4000 * t.val + r.val; omega
  | ⟨1, _⟩ => show win0_0.index t (1 : Fin 2) * 128 + 1 * (lane b p).val = (lane b p).val; omega

theorem scalars_block (c : Dev nD) (t : Fin cfg0.N) (r : Fin 4000) (b : Fin 8) :
    iblk m c 1 t (ix2 r b) = rowScalar (F := Ideal) (m ((c : Thread nD τ).loc main_arg1)) (m ((c : Thread nD τ).loc main_arg8)) (ix1 (atom (blockRow t r) b)) := by
  show V m c main_v10 (((cfg0.win 1).blk t).view.emb (ix2 r b)) = _
  rw [entry_scalars]
  refine (congrArg (packedScalars (F := Ideal) (m ((c : Thread nD τ).loc main_arg1)) (m ((c : Thread nD τ).loc main_arg8))) ?_).trans (packedScalars_apply _ _ (blockRow t r) b)
  obtain ⟨-, -, e0, e1, -⟩ := idx_facts t
  funext a; apply Fin.ext
  match a with
  | ⟨0, _⟩ => show win0_1.index t (0 : Fin 2) * 4000 + 1 * r.val = 4000 * t.val + r.val; omega
  | ⟨1, _⟩ => show win0_1.index t (1 : Fin 2) * 8 + 1 * b.val = b.val; omega

theorem selector_block (c : Dev nD) (t : Fin cfg0.N) (j b : Fin 8) (q : Fin 16) :
    iblk m c 2 t (ix2 j (lane b q)) = delta j b := by
  show V m c main_v55 (((cfg0.win 2).blk t).view.emb (ix2 j (lane b q))) = _
  rw [entry_selector]
  refine (congrArg (selector (F := Ideal)) ?_).trans (selector_apply j b q)
  obtain ⟨-, -, -, -, e0, e1, -⟩ := idx_facts t
  funext a; apply Fin.ext
  match a with
  | ⟨0, _⟩ => show win0_2.index t (0 : Fin 2) * 8 + 1 * j.val = j.val; omega
  | ⟨1, _⟩ => show win0_2.index t (1 : Fin 2) * 128 + 1 * (lane b q).val = (lane b q).val; omega

theorem weight1_block (c : Dev nD) (t : Fin cfg0.N) (a : Fin 8) (p : Fin 16) (b : Fin 8) (q : Fin 16) :
    iblk m c 3 t (ix2 (lane a p) (lane b q)) = delta a b * (m ((c : Thread nD τ).loc main_arg2)) (ix2 q p) := by
  show V m c main_v19 (((cfg0.win 3).blk t).view.emb (ix2 (lane a p) (lane b q))) = _
  rw [entry_weight1]
  refine (congrArg (blockDiag (F := Ideal) (m ((c : Thread nD τ).loc main_arg2))) ?_).trans (blockDiag_apply _ a p b q)
  obtain ⟨-, -, -, -, -, -, e0, e1, -⟩ := idx_facts t
  funext z; apply Fin.ext
  match z with
  | ⟨0, _⟩ => show win0_3.index t (0 : Fin 2) * 128 + 1 * (lane a p).val = (lane a p).val; omega
  | ⟨1, _⟩ => show win0_3.index t (1 : Fin 2) * 128 + 1 * (lane b q).val = (lane b q).val; omega

theorem bias1_block (c : Dev nD) (t : Fin cfg0.N) (b : Fin 8) (q : Fin 16) :
    iblk m c 4 t (ix1 (lane b q)) = (m ((c : Thread nD τ).loc main_arg3)) (ix1 q) := by
  show V m c main_v40 (((cfg0.win 4).blk t).view.emb (ix1 (lane b q))) = _
  rw [entry_bias1]
  refine (congrArg (tiledBias (F := Ideal) (m ((c : Thread nD τ).loc main_arg3))) ?_).trans (tiledBias_apply _ b q)
  obtain ⟨-, -, -, -, -, -, -, -, e0, -⟩ := idx_facts t
  funext z; apply Fin.ext
  match z with
  | ⟨0, _⟩ => show win0_4.index t (0 : Fin 1) * 128 + 1 * (lane b q).val = (lane b q).val; omega

theorem weight2_block (c : Dev nD) (t : Fin cfg0.N) (a : Fin 8) (p : Fin 16) (b : Fin 8) (q : Fin 16) :
    iblk m c 5 t (ix2 (lane a p) (lane b q)) = delta a b * (m ((c : Thread nD τ).loc main_arg4)) (ix2 q p) := by
  show V m c main_v28 (((cfg0.win 5).blk t).view.emb (ix2 (lane a p) (lane b q))) = _
  rw [entry_weight2]
  refine (congrArg (blockDiag (F := Ideal) (m ((c : Thread nD τ).loc main_arg4))) ?_).trans (blockDiag_apply _ a p b q)
  obtain ⟨-, -, -, -, -, -, -, -, -, e0, e1, -⟩ := idx_facts t
  funext z; apply Fin.ext
  match z with
  | ⟨0, _⟩ => show win0_5.index t (0 : Fin 2) * 128 + 1 * (lane a p).val = (lane a p).val; omega
  | ⟨1, _⟩ => show win0_5.index t (1 : Fin 2) * 128 + 1 * (lane b q).val = (lane b q).val; omega

theorem bias2_block (c : Dev nD) (t : Fin cfg0.N) (b : Fin 8) (q : Fin 16) :
    iblk m c 6 t (ix1 (lane b q)) = (m ((c : Thread nD τ).loc main_arg5)) (ix1 q) := by
  show V m c main_v43 (((cfg0.win 6).blk t).view.emb (ix1 (lane b q))) = _
  rw [entry_bias2]
  refine (congrArg (tiledBias (F := Ideal) (m ((c : Thread nD τ).loc main_arg5))) ?_).trans (tiledBias_apply _ b q)
  obtain ⟨-, -, -, -, -, -, -, -, -, -, -, e0, -⟩ := idx_facts t
  funext z; apply Fin.ext
  match z with
  | ⟨0, _⟩ => show win0_6.index t (0 : Fin 1) * 128 + 1 * (lane b q).val = (lane b q).val; omega

theorem weight3_block (c : Dev nD) (t : Fin cfg0.N) (a : Fin 8) (p : Fin 16) (b : Fin 8) (q : Fin 16) :
    iblk m c 7 t (ix2 (lane a p) (lane b q)) = delta a b * (m ((c : Thread nD τ).loc main_arg6)) (ix2 q p) := by
  show V m c main_v37 (((cfg0.win 7).blk t).view.emb (ix2 (lane a p) (lane b q))) = _
  rw [entry_weight3]
  refine (congrArg (blockDiag (F := Ideal) (m ((c : Thread nD τ).loc main_arg6))) ?_).trans (blockDiag_apply _ a p b q)
  obtain ⟨-, -, -, -, -, -, -, -, -, -, -, -, e0, e1, -⟩ := idx_facts t
  funext z; apply Fin.ext
  match z with
  | ⟨0, _⟩ => show win0_7.index t (0 : Fin 2) * 128 + 1 * (lane a p).val = (lane a p).val; omega
  | ⟨1, _⟩ => show win0_7.index t (1 : Fin 2) * 128 + 1 * (lane b q).val = (lane b q).val; omega

theorem bias3_block (c : Dev nD) (t : Fin cfg0.N) (b : Fin 8) (q : Fin 16) :
    iblk m c 8 t (ix1 (lane b q)) = (m ((c : Thread nD τ).loc main_arg7)) (ix1 q) := by
  show V m c main_v46 (((cfg0.win 8).blk t).view.emb (ix1 (lane b q))) = _
  rw [entry_bias3]
  refine (congrArg (tiledBias (F := Ideal) (m ((c : Thread nD τ).loc main_arg7))) ?_).trans (tiledBias_apply _ b q)
  obtain ⟨-, -, -, -, -, -, -, -, -, -, -, -, -, -, e0, -⟩ := idx_facts t
  funext z; apply Fin.ext
  match z with
  | ⟨0, _⟩ => show win0_8.index t (0 : Fin 1) * 128 + 1 * (lane b q).val = (lane b q).val; omega

/-! ## What a point writes back, and the array after the run -/

/-- Point t writes back block t of the packed result. -/
theorem flushed_eq (c : Dev nD) (t : Fin cfg0.N) :
    (dats m 0 c).flushed 9 t = ((cfg0.win 9).blk t).view.read (Elt Ideal) (packedOut (m ((c : Thread nD τ).loc main_arg0)) (rowScalar (F := Ideal) (m ((c : Thread nD τ).loc main_arg1)) (m ((c : Thread nD τ).loc main_arg8))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  show (cfg0.win 9).cut (grid0.coords t) ((dats m 0 c).after 9 t) = _
  rw [after0_9]
  funext j
  obtain ⟨r, l, rfl⟩ : ∃ (r : Fin 4000) (l : Fin 128), j = ix2 r l := ⟨j 0, j 1, eq_ix2 j⟩
  obtain ⟨b, q, rfl⟩ : ∃ (b : Fin 8) (q : Fin 16), l = lane b q := ⟨_, _, lane_div_mod l⟩
  show out0_9 (iblk m c 0 t) (iblk m c 1 t) (iblk m c 2 t) (iblk m c 3 t) (iblk m c 4 t) (iblk m c 5 t) (iblk m c 6 t) (iblk m c 7 t) (iblk m c 8 t)
      (ix2 r (lane b q))
    = packedOut (m ((c : Thread nD τ).loc main_arg0)) (rowScalar (F := Ideal) (m ((c : Thread nD τ).loc main_arg1)) (m ((c : Thread nD τ).loc main_arg8))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 9).blk t).view.emb (ix2 r (lane b q)))
  refine (Block.block_apply (iblk m c 0 t) (iblk m c 1 t) (iblk m c 2 t) (iblk m c 3 t) (iblk m c 4 t) (iblk m c 5 t) (iblk m c 6 t) (iblk m c 7 t) (iblk m c 8 t)
    (fun q p => (m ((c : Thread nD τ).loc main_arg2)) (ix2 q p)) (fun q p => (m ((c : Thread nD τ).loc main_arg4)) (ix2 q p)) (fun q p => (m ((c : Thread nD τ).loc main_arg6)) (ix2 q p))
    (fun q => (m ((c : Thread nD τ).loc main_arg3)) (ix1 q)) (fun q => (m ((c : Thread nD τ).loc main_arg5)) (ix1 q)) (fun q => (m ((c : Thread nD τ).loc main_arg7)) (ix1 q))
    (selector_block m c t) (weight1_block m c t) (bias1_block m c t) (weight2_block m c t) (bias2_block m c t) (weight3_block m c t) (bias3_block m c t)
    r b q).trans ?_
  have he : ((cfg0.win 9).blk t).view.emb (ix2 r (lane b q)) = ix2 (blockRow t r) (lane b q) := by
    obtain ⟨-, -, -, -, -, -, -, -, -, -, -, -, -, -, -, e0, e1⟩ := idx_facts t
    funext a; apply Fin.ext
    match a with
    | ⟨0, _⟩ => show win0_9.index t (0 : Fin 2) * 4000 + 1 * r.val = 4000 * t.val + r.val; omega
    | ⟨1, _⟩ => show win0_9.index t (1 : Fin 2) * 128 + 1 * (lane b q).val = (lane b q).val; omega
  rw [he, packedOut_apply]
  unfold entry
  rw [scalars_block m c t r b,
    show (fun p => iblk m c 0 t (ix2 r (lane b p))) = fun p => (m ((c : Thread nD τ).loc main_arg0)) (ix2 (atom (blockRow t r) b) p) from
      funext fun p => rows_block m c t r b p]

/-- An index of the packed result is in point t's block iff its row is in rows 4000·t … 4000·t + 3999. -/
theorem mem_blk (t : Fin cfg0.N) (i : S500000x128.Idx) :
    i ∈ ((cfg0.win 9).blk t).view.set ↔ ∀ a : Fin 2, win0_9.index t a * S4000x128.size a ≤ (i a).val ∧ (i a).val < win0_9.index t a * S4000x128.size a + S4000x128.size a := by
  show i ∈ ((View.whole main_v56).slice (win0_9.rect t)).set ↔ _
  rw [View.set_slice_whole, Rect.mem_set_unit]
  exact Iff.rfl

/-- The 125 blocks of 4000 rows tile the 500000 packed rows. -/
theorem cover (i : S500000x128.Idx) : ∃ t : Fin cfg0.N, (cfg0.win 9).flush t = true ∧ i ∈ ((cfg0.win 9).blk t).view.set := by
  have hi0 : (i 0).val < 500000 := (i 0).isLt
  have hi1 : (i 1).val < 128 := (i 1).isLt
  let t : Fin cfg0.N := ⟨(i 0).val / 4000, Nat.lt_of_lt_of_eq (by omega : (i 0).val / 4000 < 125) N_0.symm⟩
  refine ⟨t, flush0_9 t, ?_⟩
  rw [mem_blk]
  obtain ⟨-, -, -, -, -, -, -, -, -, -, -, -, -, -, -, e0, e1⟩ := idx_facts t
  have ht : t.val = (i 0).val / 4000 := rfl
  intro a
  match a with
  | ⟨0, _⟩ => show win0_9.index t (0 : Fin 2) * 4000 ≤ (i 0).val ∧ (i 0).val < win0_9.index t (0 : Fin 2) * 4000 + 4000; omega
  | ⟨1, _⟩ => show win0_9.index t (1 : Fin 2) * 128 ≤ (i 1).val ∧ (i 1).val < win0_9.index t (1 : Fin 2) * 128 + 128; omega

/-- After the run the packed result array is `packedOut` of the arguments. -/
theorem final (c : Dev nD) : (dats m 0 c).arrAt 9 cfg0.N = packedOut (m ((c : Thread nD τ).loc main_arg0)) (rowScalar (F := Ideal) (m ((c : Thread nD τ).loc main_arg1)) (m ((c : Thread nD τ).loc main_arg8))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 9 _ (fun t _ => flushed_eq m c t) cover

/-! ## The last re-laying, and the run -/

/-- The packed result viewed as N × 16 is the specified result. -/
theorem unpack (x : FVec Ideal S4000000x16 .f32) (s : FVec Ideal S4000000 .f32) (w1 : FVec Ideal S16x16 .f32) (b1 : FVec Ideal S16 .f32)
    (w2 : FVec Ideal S16x16 .f32) (b2 : FVec Ideal S16 .f32) (w3 : FVec Ideal S16x16 .f32) (b3 : FVec Ideal S16 .f32) :
    shapeCast S4000000x16 (packedOut x s w1 b1 w2 b2 w3 b3) shapeCasts_S500000x128_S4000000x16 = result x s w1 b1 w2 b2 w3 b3 := by
  funext i
  obtain ⟨n, q, rfl⟩ : ∃ (n : Fin 4000000) (q : Fin 16), i = ix2 n q := ⟨i 0, i 1, eq_ix2 i⟩
  have hn : n.val < 4000000 := n.isLt
  refine (shapeCast_apply _ _ (ix2 n q) (ix2 (⟨n.val / 8, by omega⟩ : Fin 500000) (lane ⟨n.val % 8, by omega⟩ q)) ?_).trans ?_
  · rw [Shape.rowMajor_val_two, Shape.rowMajor_val_two]
    show n.val / 8 * 128 + (16 * (n.val % 8) + q.val) = n.val * 16 + q.val
    omega
  rw [packedOut_apply, result_apply]
  congr 1
  exact Fin.ext (by show 8 * (n.val / 8) + n.val % 8 = n.val; omega)

/-- What the program's result buffer holds after the lines that follow the region. -/
theorem tail_eq (c : Dev nD) :
    Pipeline.afterTail₀ cfgs (dats m) 0 (V0 m) [hostOps1] c main_v57 = result (m ((c : Thread nD τ).loc main_arg0)) (rowScalar (F := Ideal) (m ((c : Thread nD τ).loc main_arg1)) (m ((c : Thread nD τ).loc main_arg8))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have hw : Pipeline.withArrays (cfgs 0).spec c (V0 m c) (fun w => (dats m 0 c).arrAt w (cfgs 0).N) (Proc.devRef .tc main_v56)
      = packedOut (m ((c : Thread nD τ).loc main_arg0)) (rowScalar (F := Ideal) (m ((c : Thread nD τ).loc main_arg1)) (m ((c : Thread nD τ).loc main_arg8))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
    (Pipeline.withArrays_arr spec0 launch0.win.arr_inj c _ _ 9).trans (final m c)
  unfold Pipeline.afterTail₀
  show StableHlo.after hostOps1 _ (Proc.devRef .tc main_v57) = _
  after_results
  rw [hw]
  exact unpack _ _ _ _ _ _ _ _

/-- From any memory with zero counters every weakly fair execution of the kernel program terminates; the result buffer
    then holds the specified result of the argument arrays as launched, and the argument arrays are unchanged. -/
theorem run : θ_run defs (onTc (τ := τ) (main (F := Ideal))) ⟨m, fun _ => 0, ρ⟩ fun r => ∀ c : Dev nD,
      r.2.mem ((c.tc : Thread nD τ).loc main_v57) = result (m ((c : Thread nD τ).loc main_arg0)) (rowScalar (F := Ideal) (m ((c : Thread nD τ).loc main_arg1)) (m ((c : Thread nD τ).loc main_arg8))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨((h c).2 main_v57 (Pipeline.mem_restRefs_of main_v57 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Packed

end
-- ==== Proof.ReferenceRun.lean ====
/-
  The reference program read back as a straight line of host operations.

  The reference is three dense layers with an exponential-linear activation, then a per-row scalar added to every
  column:  h₁ = elu (x · W₁ᵀ + b₁),  h₂ = elu (h₁ · W₂ᵀ + b₂),  h₃ = elu (h₂ · W₃ᵀ + b₃),  out = h₃ + s,
  where s[n] = float (part[n]) + charge[part[n]] (the table read with a negative index wrapped once).
  The activation is an outlined function, called three times; here each call is written out at its call site over the
  call's own buffers, so that the whole program is one list of operations, and the result buffer is read as the
  composed term of the argument arrays.
-/
import proofs.«414204_j87325275062873_3_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The composed terms -/

/-- The activation as the reference computes it: where v > 0 the value itself, elsewhere 1 · expm1 of the value
    with its positive entries replaced by 0 first. -/
def activation (v : FVec F S4000000x16 .f32) : FVec F S4000000x16 .f32 :=
  select (cmpf .ogt v (broadcastInDim S4000000x16 ![] bcast_S_S4000000x16 (constant S_ .f32 0x00000000#32))) v
    (mulf (broadcastInDim S4000000x16 ![] bcast_S_S4000000x16 (constant S_ .f32 0x3F800000#32))
      (Host.expm1 (select (cmpf .ogt v (broadcastInDim S4000000x16 ![] bcast_S_S4000000x16 (constant S_ .f32 0x00000000#32)))
        (broadcastInDim S4000000x16 ![] bcast_S_S4000000x16 (constant S_ .f32 0x00000000#32)) v)))

/-- One dense layer: the rows times the transposed weight, plus the bias on every row, then the activation. -/
def layer (w : FVec F S16x16 .f32) (b : FVec F S16 .f32) (h : FVec F S4000000x16 .f32) : FVec F S4000000x16 .f32 :=
  activation (addf (Host.dotGeneral dot_S4000000x16_S16x16_S4000000x16_1_0_0_1_n_n none h (transpose S16x16 [1, 0] w transposes_S16x16_S16x16_1_0))
    (broadcastInDim S4000000x16 ![0, 1] bcast_S1x16_S4000000x16_0_1 (broadcastInDim S1x16 ![1] bcast_S16_S1x16_1 b)))

/-- The per-row scalar: the part number as a float plus the charge table read at it (a negative index moved up by
    the table's length first). -/
def rowScalar (charge : FVec F S1024 .f32) (part : IVec S4000000 32) : FVec F S4000000 .f32 :=
  addf (sitofp .f32 part)
    (Host.gather gather_S1024_S4000000x1_S4000000_n_0_n_n_0_1_1 charge
      (broadcastInDim S4000000x1 ![0] bcast_S4000000_S4000000x1_0
        (select (cmpi .slt part (broadcastInDim S4000000 ![] bcast_S_S4000000 (constantI S_ 32 0#32)))
          (addi part (broadcastInDim S4000000 ![] bcast_S_S4000000 (constantI S_ 32 1024#32))) part)))

/-- The whole reference as one term of its nine arguments. -/
def out (x : FVec F S4000000x16 .f32) (charge : FVec F S1024 .f32) (w1 : FVec F S16x16 .f32) (b1 : FVec F S16 .f32)
    (w2 : FVec F S16x16 .f32) (b2 : FVec F S16 .f32) (w3 : FVec F S16x16 .f32) (b3 : FVec F S16 .f32) (part : IVec S4000000 32) :
    FVec F S4000000x16 .f32 :=
  addf (layer w3 b3 (layer w2 b2 (layer w1 b1 x)))
    (broadcastInDim S4000000x16 ![0, 1] bcast_S4000000x1_S4000000x16_0_1
      (broadcastInDim S4000000x1 ![0] bcast_S4000000_S4000000x1_0 (rowScalar charge part)))

/-! ## The program as a list -/

/-- The program's operations in order, each activation call written out (fifteen operations: the zero and its
    broadcast and the comparison, twice; the zero of the inner choice, converted and broadcast; the inner choice;
    expm1; the one, its broadcast and the product; the outer choice). -/
abbrev ops : List (HloOp τ sig (Elt F)) :=
  [ unary main_arg2 main_v0 ((transpose S16x16 [1, 0] · transposes_S16x16_S16x16_1_0) : (⟨S16x16, .f32⟩ : BufTy).Contents (Elt F) → (⟨S16x16, .f32⟩ : BufTy).Contents (Elt F)),
    binary main_arg0 main_v0 main_v1 ((fun l r => Host.dotGeneral dot_S4000000x16_S16x16_S4000000x16_1_0_0_1_n_n none l r) : (⟨S4000000x16, .f32⟩ : BufTy).Contents (Elt F) → (⟨S16x16, .f32⟩ : BufTy).Contents (Elt F) → (⟨S4000000x16, .f32⟩ : BufTy).Contents (Elt F)),
    unary main_arg3 main_v2 (broadcastInDim S1x16 ![1] bcast_S16_S1x16_1 : (⟨S16, .f32⟩ : BufTy).Contents (Elt F) → (⟨S1x16, .f32⟩ : BufTy).Contents (Elt F)),
    unary main_v2 main_v3 (broadcastInDim S4000000x16 ![0, 1] bcast_S1x16_S4000000x16_0_1 : (⟨S1x16, .f32⟩ : BufTy).Contents (Elt F) → (⟨S4000000x16, .f32⟩ : BufTy).Contents (Elt F)),
    binary main_v1 main_v3 main_v4 (addf : (⟨S4000000x16, .f32⟩ : BufTy).Contents (Elt F) → (⟨S4000000x16, .f32⟩ : BufTy).Contents (Elt F) → (⟨S4000000x16, .f32⟩ : BufTy).Contents (Elt F)),
    TRef.nullary main_call0.cst (constant S_ .f32 0x00000000#32),
    TRef.unary main_call0.cst main_call0.v0 (broadcastInDim S4000000x16 ![] bcast_S_S4000000x16),
    TRef.binary (.of main_v4) main_call0.v0 main_call0.v1 (cmpf .ogt),
    TRef.nullary main_call0.cst_0 (constant S_ .f32 0x00000000#32),
    TRef.unary main_call0.cst_0 main_call0.v2 (broadcastInDim S4000000x16 ![] bcast_S_S4000000x16),
    TRef.binary (.of main_v4) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S4000000x16 ![] bcast_S_S4000000x16),
    TRef.ternary main_call0.v3 main_call0.call0.v1 (.of main_v4) main_call0.call0.v2 select,
    TRef.unary main_call0.call0.v2 main_call0.v5 Host.expm1,
    TRef.nullary main_call0.cst_2 (constant S_ .f32 0x3F800000#32),
    TRef.unary main_call0.cst_2 main_call0.v6 (broadcastInDim S4000000x16 ![] bcast_S_S4000000x16),
    TRef.binary main_call0.v6 main_call0.v5 main_call0.v7 mulf,
    TRef.ternary main_call0.v1 (.of main_v4) main_call0.v7 main_call0.call1.v0 select,
    unary main_arg4 main_v6 ((transpose S16x16 [1, 0] · transposes_S16x16_S16x16_1_0) : (⟨S16x16, .f32⟩ : BufTy).Contents (Elt F) → (⟨S16x16, .f32⟩ : BufTy).Contents (Elt F)),
    binary main_v5 main_v6 main_v7 ((fun l r => Host.dotGeneral dot_S4000000x16_S16x16_S4000000x16_1_0_0_1_n_n none l r) : (⟨S4000000x16, .f32⟩ : BufTy).Contents (Elt F) → (⟨S16x16, .f32⟩ : BufTy).Contents (Elt F) → (⟨S4000000x16, .f32⟩ : BufTy).Contents (Elt F)),
    unary main_arg5 main_v8 (broadcastInDim S1x16 ![1] bcast_S16_S1x16_1 : (⟨S16, .f32⟩ : BufTy).Contents (Elt F) → (⟨S1x16, .f32⟩ : BufTy).Contents (Elt F)),
    unary main_v8 main_v9 (broadcastInDim S4000000x16 ![0, 1] bcast_S1x16_S4000000x16_0_1 : (⟨S1x16, .f32⟩ : BufTy).Contents (Elt F) → (⟨S4000000x16, .f32⟩ : BufTy).Contents (Elt F)),
    binary main_v7 main_v9 main_v10 (addf : (⟨S4000000x16, .f32⟩ : BufTy).Contents (Elt F) → (⟨S4000000x16, .f32⟩ : BufTy).Contents (Elt F) → (⟨S4000000x16, .f32⟩ : BufTy).Contents (Elt F)),
    TRef.nullary main_call1.cst (constant S_ .f32 0x00000000#32),
    TRef.unary main_call1.cst main_call1.v0 (broadcastInDim S4000000x16 ![] bcast_S_S4000000x16),
    TRef.binary (.of main_v10) main_call1.v0 main_call1.v1 (cmpf .ogt),
    TRef.nullary main_call1.cst_0 (constant S_ .f32 0x00000000#32),
    TRef.unary main_call1.cst_0 main_call1.v2 (broadcastInDim S4000000x16 ![] bcast_S_S4000000x16),
    TRef.binary (.of main_v10) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S4000000x16 ![] bcast_S_S4000000x16),
    TRef.ternary main_call1.v3 main_call1.call0.v1 (.of main_v10) main_call1.call0.v2 select,
    TRef.unary main_call1.call0.v2 main_call1.v5 Host.expm1,
    TRef.nullary main_call1.cst_2 (constant S_ .f32 0x3F800000#32),
    TRef.unary main_call1.cst_2 main_call1.v6 (broadcastInDim S4000000x16 ![] bcast_S_S4000000x16),
    TRef.binary main_call1.v6 main_call1.v5 main_call1.v7 mulf,
    TRef.ternary main_call1.v1 (.of main_v10) main_call1.v7 main_call1.call1.v0 select,
    unary main_arg6 main_v12 ((transpose S16x16 [1, 0] · transposes_S16x16_S16x16_1_0) : (⟨S16x16, .f32⟩ : BufTy).Contents (Elt F) → (⟨S16x16, .f32⟩ : BufTy).Contents (Elt F)),
    binary main_v11 main_v12 main_v13 ((fun l r => Host.dotGeneral dot_S4000000x16_S16x16_S4000000x16_1_0_0_1_n_n none l r) : (⟨S4000000x16, .f32⟩ : BufTy).Contents (Elt F) → (⟨S16x16, .f32⟩ : BufTy).Contents (Elt F) → (⟨S4000000x16, .f32⟩ : BufTy).Contents (Elt F)),
    unary main_arg7 main_v14 (broadcastInDim S1x16 ![1] bcast_S16_S1x16_1 : (⟨S16, .f32⟩ : BufTy).Contents (Elt F) → (⟨S1x16, .f32⟩ : BufTy).Contents (Elt F)),
    unary main_v14 main_v15 (broadcastInDim S4000000x16 ![0, 1] bcast_S1x16_S4000000x16_0_1 : (⟨S1x16, .f32⟩ : BufTy).Contents (Elt F) → (⟨S4000000x16, .f32⟩ : BufTy).Contents (Elt F)),
    binary main_v13 main_v15 main_v16 (addf : (⟨S4000000x16, .f32⟩ : BufTy).Contents (Elt F) → (⟨S4000000x16, .f32⟩ : BufTy).Contents (Elt F) → (⟨S4000000x16, .f32⟩ : BufTy).Contents (Elt F)),
    TRef.nullary main_call2.cst (constant S_ .f32 0x00000000#32),
    TRef.unary main_call2.cst main_call2.v0 (broadcastInDim S4000000x16 ![] bcast_S_S4000000x16),
    TRef.binary (.of main_v16) main_call2.v0 main_call2.v1 (cmpf .ogt),
    TRef.nullary main_call2.cst_0 (constant S_ .f32 0x00000000#32),
    TRef.unary main_call2.cst_0 main_call2.v2 (broadcastInDim S4000000x16 ![] bcast_S_S4000000x16),
    TRef.binary (.of main_v16) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S4000000x16 ![] bcast_S_S4000000x16),
    TRef.ternary main_call2.v3 main_call2.call0.v1 (.of main_v16) main_call2.call0.v2 select,
    TRef.unary main_call2.call0.v2 main_call2.v5 Host.expm1,
    TRef.nullary main_call2.cst_2 (constant S_ .f32 0x3F800000#32),
    TRef.unary main_call2.cst_2 main_call2.v6 (broadcastInDim S4000000x16 ![] bcast_S_S4000000x16),
    TRef.binary main_call2.v6 main_call2.v5 main_call2.v7 mulf,
    TRef.ternary main_call2.v1 (.of main_v16) main_call2.v7 main_call2.call1.v0 select,
    unary main_arg8 main_v18 (sitofp .f32 : (⟨S4000000, .i32⟩ : BufTy).Contents (Elt F) → (⟨S4000000, .f32⟩ : BufTy).Contents (Elt F)),
    nullary main_c (constantI S_ 32 0#32),
    unary main_c main_v19 (broadcastInDim S4000000 ![] bcast_S_S4000000 : (⟨S_, .i32⟩ : BufTy).Contents (Elt F) → (⟨S4000000, .i32⟩ : BufTy).Contents (Elt F)),
    binary main_arg8 main_v19 main_v20 (cmpi .slt : (⟨S4000000, .i32⟩ : BufTy).Contents (Elt F) → (⟨S4000000, .i32⟩ : BufTy).Contents (Elt F) → (⟨S4000000, .i1⟩ : BufTy).Contents (Elt F)),
    nullary main_c_0 (constantI S_ 32 1024#32),
    unary main_c_0 main_v21 (broadcastInDim S4000000 ![] bcast_S_S4000000 : (⟨S_, .i32⟩ : BufTy).Contents (Elt F) → (⟨S4000000, .i32⟩ : BufTy).Contents (Elt F)),
    binary main_arg8 main_v21 main_v22 (addi : (⟨S4000000, .i32⟩ : BufTy).Contents (Elt F) → (⟨S4000000, .i32⟩ : BufTy).Contents (Elt F) → (⟨S4000000, .i32⟩ : BufTy).Contents (Elt F)),
    ternary main_v20 main_v22 main_arg8 main_v23 (select : (⟨S4000000, .i1⟩ : BufTy).Contents (Elt F) → (⟨S4000000, .i32⟩ : BufTy).Contents (Elt F) → (⟨S4000000, .i32⟩ : BufTy).Contents (Elt F) → (⟨S4000000, .i32⟩ : BufTy).Contents (Elt F)),
    unary main_v23 main_v24 (broadcastInDim S4000000x1 ![0] bcast_S4000000_S4000000x1_0 : (⟨S4000000, .i32⟩ : BufTy).Contents (Elt F) → (⟨S4000000x1, .i32⟩ : BufTy).Contents (Elt F)),
    binary main_arg1 main_v24 main_v25 ((fun x i => Host.gather gather_S1024_S4000000x1_S4000000_n_0_n_n_0_1_1 x i) : (⟨S1024, .f32⟩ : BufTy).Contents (Elt F) → (⟨S4000000x1, .i32⟩ : BufTy).Contents (Elt F) → (⟨S4000000, .f32⟩ : BufTy).Contents (Elt F)),
    binary main_v18 main_v25 main_v26 (addf : (⟨S4000000, .f32⟩ : BufTy).Contents (Elt F) → (⟨S4000000, .f32⟩ : BufTy).Contents (Elt F) → (⟨S4000000, .f32⟩ : BufTy).Contents (Elt F)),
    unary main_v26 main_v27 (broadcastInDim S4000000x1 ![0] bcast_S4000000_S4000000x1_0 : (⟨S4000000, .f32⟩ : BufTy).Contents (Elt F) → (⟨S4000000x1, .f32⟩ : BufTy).Contents (Elt F)),
    unary main_v27 main_v28 (broadcastInDim S4000000x16 ![0, 1] bcast_S4000000x1_S4000000x16_0_1 : (⟨S4000000x1, .f32⟩ : BufTy).Contents (Elt F) → (⟨S4000000x16, .f32⟩ : BufTy).Contents (Elt F)),
    binary main_v17 main_v28 main_v29 (addf : (⟨S4000000x16, .f32⟩ : BufTy).Contents (Elt F) → (⟨S4000000x16, .f32⟩ : BufTy).Contents (Elt F) → (⟨S4000000x16, .f32⟩ : BufTy).Contents (Elt F)) ]

-- the calls' bodies are unfolded at their call sites and the chain of binds re-associated
set_option maxRecDepth 4096 in
set_option maxHeartbeats 4000000 in
/-- The program is that straight line. -/
theorem main_eq (c : Dev nD) : main (F := F) c = seq ops := by
  simp only [main, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub ..⟩

set_option maxRecDepth 8192 in
set_option maxHeartbeats 1600000 in
/-- What the result buffer holds after the line, from any contents: the composed term of the contents of the nine
    argument buffers. -/
theorem out_eq (V : Valuation τ sig (Elt F)) :
    after ops V (main_v29 : DevRef τ sig)
      = out (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig))
          (V (main_arg8 : DevRef τ sig)) := by
  unfold out layer activation rowScalar
  after_results_simp
  rfl

/-! No operation of the line writes an argument buffer. -/
section Kept
set_option maxRecDepth 8192
set_option maxHeartbeats 1600000
theorem arg0_kept (V : Valuation τ sig (Elt F)) : after ops V (main_arg0 : DevRef τ sig) = V (main_arg0 : DevRef τ sig) := by
  after_results_simp
theorem arg1_kept (V : Valuation τ sig (Elt F)) : after ops V (main_arg1 : DevRef τ sig) = V (main_arg1 : DevRef τ sig) := by
  after_results_simp
theorem arg2_kept (V : Valuation τ sig (Elt F)) : after ops V (main_arg2 : DevRef τ sig) = V (main_arg2 : DevRef τ sig) := by
  after_results_simp
theorem arg3_kept (V : Valuation τ sig (Elt F)) : after ops V (main_arg3 : DevRef τ sig) = V (main_arg3 : DevRef τ sig) := by
  after_results_simp
theorem arg4_kept (V : Valuation τ sig (Elt F)) : after ops V (main_arg4 : DevRef τ sig) = V (main_arg4 : DevRef τ sig) := by
  after_results_simp
theorem arg5_kept (V : Valuation τ sig (Elt F)) : after ops V (main_arg5 : DevRef τ sig) = V (main_arg5 : DevRef τ sig) := by
  after_results_simp
theorem arg6_kept (V : Valuation τ sig (Elt F)) : after ops V (main_arg6 : DevRef τ sig) = V (main_arg6 : DevRef τ sig) := by
  after_results_simp
theorem arg7_kept (V : Valuation τ sig (Elt F)) : after ops V (main_arg7 : DevRef τ sig) = V (main_arg7 : DevRef τ sig) := by
  after_results_simp
theorem arg8_kept (V : Valuation τ sig (Elt F)) : after ops V (main_arg8 : DevRef τ sig) = V (main_arg8 : DevRef τ sig) := by
  after_results_simp
end Kept

/-- From any memory with zero counters, every weakly fair execution of the reference terminates; the result buffer
    then holds `out` of the nine argument arrays as launched, and the argument arrays are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v29).trans (out_eq _),
      (h c main_arg0).trans (arg0_kept _),
      (h c main_arg1).trans (arg1_kept _),
      (h c main_arg2).trans (arg2_kept _),
      (h c main_arg3).trans (arg3_kept _),
      (h c main_arg4).trans (arg4_kept _),
      (h c main_arg5).trans (arg5_kept _),
      (h c main_arg6).trans (arg6_kept _),
      (h c main_arg7).trans (arg7_kept _),
      (h c main_arg8).trans (arg8_kept _)⟩)
    (run_seq scopedRefs_eq scopedSems_eq defs main (fun _ => ops) main_eq (fun _ => ops_sub) m ρ)

end Cert.ReferenceIdeal.HandRun

end
-- ==== Proof.ReferenceValue.lean ====
/-
  The reference's result at an entry.

  Entry (n, q) of the reference is  mlp (row n of x) at q, plus the per-row scalar at n:  each layer's product is the
  16-term sum  Σ_p h[n, p] · W[q, p]  (the transposed weight read back), the bias broadcast over the rows adds
  bias[q], and the activation is the exponential-linear unit in its expm1 form.
-/
import proofs.«414204_j87325275062873_3_alg».proof.Proof.ReferenceRun
import proofs.«414204_j87325275062873_3_alg».proof.Proof.LibPlainDot
import proofs.«414204_j87325275062873_3_alg».proof.Proof.BlockDiagonal
import Idealize.ShloMosaic.Lib.ValueLayout

noncomputable section

namespace Cert.ReferenceIdeal.HandRun

open Cert.ReferenceIdeal Cert.ReferenceIdeal.Gen Idealize.ShloMosaic Idealize.ShloMosaic.ValueIdx Cert.AtomMlp Cert.Lib.PlainDot

/-- A weight matrix as a function of (output feature, input feature). -/
def weightOf (w : FVec Ideal S16x16 .f32) : Fin 16 → Fin 16 → EReal := fun q p => w (ix2 q p)

/-- A bias vector as a function of the feature. -/
def biasOf (b : FVec Ideal S16 .f32) : Fin 16 → EReal := fun q => b (ix1 q)

/-- A float constant broadcast to every entry reads the constant. -/
theorem splat_apply (bits : BitVec 32) (i : S4000000x16.Idx) :
    broadcastInDim S4000000x16 ![] bcast_S_S4000000x16 (constant (F := Ideal) S_ .f32 bits) i = Ideal.ofBits .f32 bits :=
  broadcastInDim_apply _ _ _ i ix0 (fun z => z.elim0)

/-- The activation, entry by entry. -/
theorem activation_apply (v : FVec Ideal S4000000x16 .f32) (i : S4000000x16.Idx) : activation v i = elu (v i) := by
  unfold activation
  show Scalar.select (FloatOps.cmpf .ogt (v i) (broadcastInDim S4000000x16 ![] bcast_S_S4000000x16 (constant (F := Ideal) S_ .f32 0x00000000#32) i)) (v i)
    (FloatOps.mulf (broadcastInDim S4000000x16 ![] bcast_S_S4000000x16 (constant (F := Ideal) S_ .f32 0x3F800000#32) i)
      (FloatOps.hostUnary .expm1 (Scalar.select (FloatOps.cmpf .ogt (v i) (broadcastInDim S4000000x16 ![] bcast_S_S4000000x16 (constant (F := Ideal) S_ .f32 0x00000000#32) i))
        (broadcastInDim S4000000x16 ![] bcast_S_S4000000x16 (constant (F := Ideal) S_ .f32 0x00000000#32) i) (v i)))) = _
  rw [splat_apply, splat_apply, Ideal.ofBits_zero_f32, ofBits_one_f32]
  exact elu_of_expm1 (v i)

/-- One layer at entry (n, q): the dense layer of row n. -/
theorem layer_apply (w : FVec Ideal S16x16 .f32) (b : FVec Ideal S16 .f32) (h : FVec Ideal S4000000x16 .f32)
    (n : Fin 4000000) (q : Fin 16) :
    layer w b h (ix2 n q) = denseRow (weightOf w) (biasOf b) (fun p => h (ix2 n p)) q := by
  unfold layer denseRow weightOf biasOf
  rw [activation_apply, addf_apply]
  congr 2
  · show FloatOps.dotGeneral dot_S4000000x16_S16x16_S4000000x16_1_0_0_1_n_n none _ h _ (ix2 n q) = _
    rw [Ideal.dotGeneral_apply,
      plainDot_sum dot_S4000000x16_S16x16_S4000000x16_1_0_0_1_n_n rfl rfl rfl rfl rfl rfl h _ n q]
    exact Finset.sum_congr rfl fun p _ => congrArg (h (ix2 n p) * ·) (transpose_ix2_apply w _ p q)
  · refine (broadcastInDim_apply _ _ _ (ix2 n q) (ix2 (0 : Fin 1) q) fun z => ?_).trans ?_
    · match z with
      | ⟨0, _⟩ => rfl
      | ⟨1, _⟩ => rfl
    refine (broadcastInDim_apply _ _ _ (ix2 (0 : Fin 1) q) (ix1 q) fun z => ?_)
    match z with
    | ⟨0, _⟩ => rfl

/-- The whole reference at entry (n, q). -/
theorem out_apply (x : FVec Ideal S4000000x16 .f32) (charge : FVec Ideal S1024 .f32) (w1 : FVec Ideal S16x16 .f32) (b1 : FVec Ideal S16 .f32)
    (w2 : FVec Ideal S16x16 .f32) (b2 : FVec Ideal S16 .f32) (w3 : FVec Ideal S16x16 .f32) (b3 : FVec Ideal S16 .f32) (part : IVec S4000000 32)
    (n : Fin 4000000) (q : Fin 16) :
    out x charge w1 b1 w2 b2 w3 b3 part (ix2 n q)
      = mlpRow (weightOf w1) (biasOf b1) (weightOf w2) (biasOf b2) (weightOf w3) (biasOf b3) (fun p => x (ix2 n p)) q
        + rowScalar charge part (ix1 n) := by
  unfold out mlpRow
  rw [addf_apply, layer_apply]
  congr 1
  · congr 1
    funext p
    rw [layer_apply]
    congr 1
    funext p'
    rw [layer_apply]
  · refine (broadcastInDim_apply _ _ _ (ix2 n q) (ix2 n (0 : Fin 1)) fun z => ?_).trans ?_
    · match z with
      | ⟨0, _⟩ => rfl
      | ⟨1, _⟩ => rfl
    refine (broadcastInDim_apply _ _ _ (ix2 n (0 : Fin 1)) (ix1 n) fun z => ?_)
    match z with
    | ⟨0, _⟩ => rfl

end Cert.ReferenceIdeal.HandRun

end
-- ==== Proof.lean ====
/-
  Three dense layers with an exponential-linear activation on 4,000,000 atoms of 16 features, plus a per-atom scalar
  (the atom's part number and the part's charge), computed two ways.

  The reference multiplies the N × 16 rows by each transposed 16 × 16 weight, adds the bias, applies
  elu v = v (v > 0), eᵛ − 1 (otherwise) written through expm1, and adds the scalar to every column of its row.
  The kernel packs eight atoms into one 128-lane row, multiplies by the block-diagonal matrix I₈ ⊗ Wᵀ (so that no
  atom's features reach another atom's columns), writes elu as exp (min v 0) − 1, spreads the eight scalars of a packed
  row over their atoms' lanes by a product with the lane-to-atom indicator, and un-packs the result.

  On the extended reals the two agree entry by entry with no condition on the inputs: a product with an exact zero is
  zero, so the 128-term sums collapse to each atom's 16 terms and the 8-term indicator sum picks one scalar; where the
  activation's second branch is taken v ≤ 0, so min v 0 = v; and the part-number conversion and the table read are the
  same operations on the same arguments in both programs.  Both results are the array `Cert.AtomMlp.result` of the
  arguments.  The kernel's idealization rewrote nothing, so `preserves` asks nothing.
-/
import proofs.«414204_j87325275062873_3_alg».proof.Defs
import proofs.«414204_j87325275062873_3_alg».proof.Proof.Gen.Kernel
import proofs.«414204_j87325275062873_3_alg».proof.Proof.Gen.Kernel.Frame
import proofs.«414204_j87325275062873_3_alg».proof.Proof.Gen.KernelIdeal
import proofs.«414204_j87325275062873_3_alg».proof.Proof.Gen.KernelIdeal.Frame
import proofs.«414204_j87325275062873_3_alg».proof.Proof.Gen.ReferenceIdeal
import proofs.«414204_j87325275062873_3_alg».proof.Proof.Gen.Pre_finite_inputs
import proofs.«414204_j87325275062873_3_alg».proof.Proof.KernelArray
import proofs.«414204_j87325275062873_3_alg».proof.Proof.ReferenceValue
import Idealize.ShloMosaic.Adequacy
import Idealize.ShloMosaic.Init

noncomputable section

namespace Cert.Proof

open Idealize.ShloMosaic Idealize.ShloMosaic.ValueIdx Idealize.SL.Sem

/-- The per-atom scalar is one term in both programs: the same conversion, index wrap and table read. -/
theorem rowScalar_eq (charge : FVec Ideal Cert.ReferenceIdeal.S1024 .f32) (part : IVec Cert.ReferenceIdeal.S4000000 32) :
    Cert.ReferenceIdeal.HandRun.rowScalar charge part = Cert.KernelIdeal.Packed.rowScalar charge part := rfl

/-- The reference's composed term is the specified result. -/
theorem reference_eq (x : FVec Ideal Cert.ReferenceIdeal.S4000000x16 .f32) (charge : FVec Ideal Cert.ReferenceIdeal.S1024 .f32)
    (w1 : FVec Ideal Cert.ReferenceIdeal.S16x16 .f32) (b1 : FVec Ideal Cert.ReferenceIdeal.S16 .f32)
    (w2 : FVec Ideal Cert.ReferenceIdeal.S16x16 .f32) (b2 : FVec Ideal Cert.ReferenceIdeal.S16 .f32)
    (w3 : FVec Ideal Cert.ReferenceIdeal.S16x16 .f32) (b3 : FVec Ideal Cert.ReferenceIdeal.S16 .f32)
    (part : IVec Cert.ReferenceIdeal.S4000000 32) :
    Cert.ReferenceIdeal.HandRun.out x charge w1 b1 w2 b2 w3 b3 part
      = Cert.AtomMlp.result x (Cert.ReferenceIdeal.HandRun.rowScalar charge part) w1 b1 w2 b2 w3 b3 := by
  funext i
  obtain ⟨n, q, rfl⟩ : ∃ (n : Fin 4000000) (q : Fin 16), i = ix2 n q := ⟨i 0, i 1, eq_ix2 i⟩
  rw [Cert.ReferenceIdeal.HandRun.out_apply, Cert.AtomMlp.result_apply]
  rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.HandRun.run (F := Ideal) m ρ)

theorem preserves : Cert.preserves_Kernel_KernelIdeal := trivial

/-- Both programs end with the specified result of arguments that agree. -/
theorem algebraic : Cert.algebraic_KernelIdeal_ReferenceIdeal := by
  intro m ρ m' ρ' _ hagree
  refine ⟨_, Cert.KernelIdeal.Packed.run m ρ, ?_⟩
  refine (θ_run Cert.ReferenceIdeal.defs _ _).mono (fun _ h c => ⟨(h c).1.trans ?_, (h c).2⟩)
    (Cert.ReferenceIdeal.HandRun.run (F := Ideal) m' ρ')
  obtain ⟨a0, a1, a2, a3, a4, a5, a6, a7, a8⟩ := hagree c
  rw [a0, a1, a2, a3, a4, a5, a6, a7, a8, reference_eq, rowScalar_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
